-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x4x512x512 : Shape := ⟨5, ![8, 6, 4, 512, 512]⟩
abbrev S8x6x512x512 : Shape := ⟨4, ![8, 6, 512, 512]⟩
abbrev S_ : Shape := ⟨0, ![]⟩

class Facts : Prop where
  bcast_S_S8x6x4x512x512 : S_.BroadcastsInDim S8x6x4x512x512 (![] : Fin 0 → Fin S8x6x4x512x512.rank)
  reducesTo_S8x6x4x512x512_S_d0_1_2_3_4 : S8x6x4x512x512.ReducesTo [0, 1, 2, 3, 4] S_
  h_S_ : 0 < S_.numel
  bcast_S_S8x6x512x512 : S_.BroadcastsInDim S8x6x512x512 (![] : Fin 0 → Fin S8x6x512x512.rank)
  reducesTo_S8x6x512x512_S_d0_1_2_3 : S8x6x512x512.ReducesTo [0, 1, 2, 3] S_

variable [Facts]

def fn {F : FTy → Type} [FloatOps F] (main_arg0 : FVec F S8x6x4x512x512 .f32) (main_arg1 : IVec S8x6x512x512 32) : IVec S_ 1 :=
  let main_v0 : FVec F S8x6x4x512x512 .f32 := Host.absf main_arg0
  let main_cst : FVec F S_ .f32 := constant S_ .f32 0x7F800000#32
  let main_v1 : FVec F S8x6x4x512x512 .f32 := broadcastInDim S8x6x4x512x512 ![] bcast_S_S8x6x4x512x512 main_cst
  let main_v2 : IVec S8x6x4x512x512 1 := cmpf .olt main_v0 main_v1
  let main_c : IVec S_ 1 := constantI S_ 1 1#1
  let main_v3 : IVec S_ 1 := (fun x v => Host.reduce IntOp.andi x v reducesTo_S8x6x4x512x512_S_d0_1_2_3_4 h_S_) main_v2 main_c
  let main_c_0 : IVec S_ 32 := constantI S_ 32 4294967292#32
  let main_v4 : IVec S8x6x512x512 32 := broadcastInDim S8x6x512x512 ![] bcast_S_S8x6x512x512 main_c_0
  let main_v5 : IVec S8x6x512x512 1 := cmpi .sge main_arg1 main_v4
  let main_c_1 : IVec S_ 32 := constantI S_ 32 4#32
  let main_v6 : IVec S8x6x512x512 32 := broadcastInDim S8x6x512x512 ![] bcast_S_S8x6x512x512 main_c_1
  let main_v7 : IVec S8x6x512x512 1 := cmpi .slt main_arg1 main_v6
  let main_v8 : IVec S8x6x512x512 1 := andi main_v5 main_v7
  let main_c_2 : IVec S_ 1 := constantI S_ 1 1#1
  let main_v9 : IVec S_ 1 := (fun x v => Host.reduce IntOp.andi x v reducesTo_S8x6x512x512_S_d0_1_2_3 h_S_) main_v8 main_c_2
  let main_v10 : IVec S_ 1 := andi main_v3 main_v9
  main_v10
-- ==== Kernel.lean ====
abbrev S8x6x4x512x512 : Shape := ⟨5, ![8, 6, 4, 512, 512]⟩
abbrev S8x6x512x512 : Shape := ⟨4, ![8, 6, 512, 512]⟩
abbrev S6x512x1 : Shape := ⟨3, ![6, 512, 1]⟩
abbrev S2x1x4x512x512 : Shape := ⟨5, ![2, 1, 4, 512, 512]⟩
abbrev S2x1x512x512 : Shape := ⟨4, ![2, 1, 512, 512]⟩
abbrev S1x512x1 : Shape := ⟨3, ![1, 512, 1]⟩
abbrev S512x1 : Shape := ⟨2, ![512, 1]⟩
abbrev S1x1x4x512x512 : Shape := ⟨5, ![1, 1, 4, 512, 512]⟩
abbrev S4x512x512 : Shape := ⟨3, ![4, 512, 512]⟩
abbrev S1x1x512x512 : Shape := ⟨4, ![1, 1, 512, 512]⟩
abbrev S512x512 : Shape := ⟨2, ![512, 512]⟩
abbrev S1x512x512 : Shape := ⟨3, ![1, 512, 512]⟩
abbrev S512 : Shape := ⟨1, ![512]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S8x6x4x512x512, .f32⟩
  | .hbm, ⟨1, _⟩ => ⟨S8x6x512x512, .i32⟩
  | .hbm, ⟨2, _⟩ => ⟨S6x512x1, .f32⟩
  | .hbm, ⟨3, _⟩ => ⟨S_, .f32⟩
  | .hbm, ⟨4, _⟩ => ⟨S_, .f32⟩
  | .local _ .vmem, ⟨0, _⟩ => ⟨S2x1x4x512x512, .f32⟩
  | .local _ .vmem, ⟨1, _⟩ => ⟨S2x1x4x512x512, .f32⟩
  | .local _ .vmem, ⟨2, _⟩ => ⟨S2x1x512x512, .i32⟩
  | .local _ .vmem, ⟨3, _⟩ => ⟨S2x1x512x512, .i32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | _, _ => ⟨S8x6x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def k0_cond2 (i : grid0.Coords) : BitVec 1 :=
  let arg1 : BitVec 32 := BitVec.ofNat 32 (i 1).val
  let c3_i32 : BitVec 32 := 3#32
  let v79 : BitVec 1 := Scalar.cmpi .eq arg1 c3_i32
  let v80 : BitVec 32 := Scalar.extui v79
  let c0_i32_39 : BitVec 32 := 0#32
  let v81 : BitVec 1 := Scalar.cmpi .ne v80 c0_i32_39
  v81

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2x1x4x512x512_S1x1x4x512x512_0_0_0_0_0 : ∀ a, (![0, 0, 0, 0, 0] : Fin 5 → Nat) a + S1x1x4x512x512.size a ≤ S2x1x4x512x512.size a
  h_S1x1x4x512x512 : 0 < S1x1x4x512x512.numel
  shapeCasts_S1x1x4x512x512_S4x512x512 : S1x1x4x512x512.ShapeCasts S4x512x512
  inb_S2x1x512x512_S1x1x512x512_0_0_0_0 : ∀ a, (![0, 0, 0, 0] : Fin 4 → Nat) a + S1x1x512x512.size a ≤ S2x1x512x512.size a
  h_S1x1x512x512 : 0 < S1x1x512x512.numel
  shapeCasts_S1x1x512x512_S512x512 : S1x1x512x512.ShapeCasts S512x512
  reduces_S4x512x512_S512x512 : S4x512x512.Reduces [0] S512x512
  slices_S4x512x512_o0_0_0_S1x512x512 : S4x512x512.Slices ![0, 0, 0] S1x512x512
  shapeCasts_S1x512x512_S512x512 : S1x512x512.ShapeCasts S512x512
  slices_S4x512x512_o1_0_0_S1x512x512 : S4x512x512.Slices ![1, 0, 0] S1x512x512
  slices_S4x512x512_o2_0_0_S1x512x512 : S4x512x512.Slices ![2, 0, 0] S1x512x512
  slices_S4x512x512_o3_0_0_S1x512x512 : S4x512x512.Slices ![3, 0, 0] S1x512x512
  reduces_S512x512_S512 : S512x512.Reduces [1] S512
  shapeCasts_S512_S512x1 : S512.ShapeCasts S512x1
  inb_S2x1x4x512x512_S1x1x4x512x512_1_0_0_0_0 : ∀ a, (![1, 0, 0, 0, 0] : Fin 5 → Nat) a + S1x1x4x512x512.size a ≤ S2x1x4x512x512.size a
  inb_S2x1x512x512_S1x1x512x512_1_0_0_0 : ∀ a, (![1, 0, 0, 0] : Fin 4 → Nat) a + S1x1x512x512.size a ≤ S2x1x512x512.size a
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S6x512x1_S_d0_1_2 : S6x512x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x4x512x512.size a ≤ S8x6x4x512x512.size a
  hwx0_0 : ∀ i : grid0.Coords, EltTy.bits .f32 = 32 ∨ (Rect.block (s := S8x6x4x512x512) S2x1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S8x6x512x512.size a
  hwx0_1 : ∀ i : grid0.Coords, EltTy.bits .i32 = 32 ∨ (Rect.block (s := S8x6x512x512) S2x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S6x512x1.size a
  hwx0_2 : ∀ i : grid0.Coords, EltTy.bits .f32 = 32 ∨ (Rect.block (s := S6x512x1) S1x512x1.size (cc0_transform_2 i) (hinb0_2 i)).WholeWords (EltTy.packing .f32)

variable [Facts₀]

abbrev win0_0 : Pipeline.Window sig grid0 :=
  Pipeline.Window.ofSpec (Memref.whole main_arg0) S2x1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x6x4x512x512 : Shape := ⟨5, ![8, 6, 4, 512, 512]⟩
abbrev S8x6x512x512 : Shape := ⟨4, ![8, 6, 512, 512]⟩
abbrev S_ : Shape := ⟨0, ![]⟩
abbrev S8x6x1x512x512 : Shape := ⟨5, ![8, 6, 1, 512, 512]⟩
abbrev S8x6x1x512x512x1 : Shape := ⟨6, ![8, 6, 1, 512, 512, 1]⟩
abbrev S1 : Shape := ⟨1, ![1]⟩
abbrev S1x1x1x1x1x1 : Shape := ⟨6, ![1, 1, 1, 1, 1, 1]⟩
abbrev S6x512x512 : Shape := ⟨3, ![6, 512, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x6x4x512x512, .f32⟩
  | .hbm, ⟨1, _⟩ => ⟨S8x6x512x512, .i32⟩
  | .hbm, ⟨2, _⟩ => ⟨S_, .f32⟩
  | .hbm, ⟨3, _⟩ => ⟨S8x6x512x512, .f32⟩
  | .hbm, ⟨4, _⟩ => ⟨S_, .f32⟩
  | .hbm, ⟨5, _⟩ => ⟨S8x6x512x512, .f32⟩
  | .hbm, ⟨6, _⟩ => ⟨S8x6x512x512, .f32⟩
  | .hbm, ⟨7, _⟩ => ⟨S8x6x1x512x512, .f32⟩
  | .hbm, ⟨8, _⟩ => ⟨S8x6x4x512x512, .f32⟩
  | .hbm, ⟨9, _⟩ => ⟨S8x6x4x512x512, .f32⟩
  | .hbm, ⟨10, _⟩ => ⟨S8x6x4x512x512, .f32⟩
  | .hbm, ⟨11, _⟩ => ⟨S_, .f32⟩
  | .hbm, ⟨12, _⟩ => ⟨S8x6x512x512, .f32⟩
  | .hbm, ⟨13, _⟩ => ⟨S8x6x1x512x512, .f32⟩
  | .hbm, ⟨14, _⟩ => ⟨S8x6x1x512x512, .f32⟩
  | .hbm, ⟨15, _⟩ => ⟨S8x6x4x512x512, .f32⟩
  | .hbm, ⟨16, _⟩ => ⟨S8x6x4x512x512, .f32⟩
  | .hbm, ⟨17, _⟩ => ⟨S8x6x1x512x512, .i32⟩
  | .hbm, ⟨18, _⟩ => ⟨S_, .i32⟩
  | .hbm, ⟨19, _⟩ => ⟨S8x6x1x512x512, .i32⟩
  | .hbm, ⟨20, _⟩ => ⟨S8x6x1x512x512, .i1⟩
  | .hbm, ⟨21, _⟩ => ⟨S_, .i32⟩
  | .hbm, ⟨22, _⟩ => ⟨S8x6x1x512x512, .i32⟩
  | .hbm, ⟨23, _⟩ => ⟨S8x6x1x512x512, .i32⟩
  | .hbm, ⟨24, _⟩ => ⟨S8x6x1x512x512, .i32⟩
  | .hbm, ⟨25, _⟩ => ⟨S8x6x1x512x512x1, .i32⟩
  | .hbm, ⟨26, _⟩ => ⟨S1, .i32⟩
  | .hbm, ⟨27, _⟩ => ⟨S_, .i32⟩
  | .hbm, ⟨28, _⟩ => ⟨S8x6x1x512x512x1, .i32⟩
  | .hbm, ⟨29, _⟩ => ⟨S8x6x1x512x512x1, .i1⟩
  | .hbm, ⟨30, _⟩ => ⟨S1x1x1x1x1x1, .i32⟩
  | .hbm, ⟨31, _⟩ => ⟨S8x6x1x512x512x1, .i32⟩
  | .hbm, ⟨32, _⟩ => ⟨S8x6x1x512x512x1, .i1⟩
  | .hbm, ⟨33, _⟩ => ⟨S8x6x1x512x512x1, .i1⟩
  | .hbm, ⟨34, _⟩ => ⟨S_, .i1⟩
  | .hbm, ⟨35, _⟩ => ⟨S8x6x1x512x512, .i1⟩
  | .hbm, ⟨36, _⟩ => ⟨S8x6x1x512x512, .f32⟩
  | .hbm, ⟨37, _⟩ => ⟨S_, .f32⟩
  | .hbm, ⟨38, _⟩ => ⟨S8x6x1x512x512, .f32⟩
  | .hbm, ⟨39, _⟩ => ⟨S8x6x1x512x512, .f32⟩
  | .hbm, ⟨40, _⟩ => ⟨S8x6x512x512, .f32⟩
  | .hbm, ⟨41, _⟩ => ⟨S8x6x512x512, .f32⟩
  | .hbm, ⟨42, _⟩ => ⟨S_, .f32⟩
  | .hbm, ⟨43, _⟩ => ⟨S6x512x512, .f32⟩
  | .hbm, ⟨44, _⟩ => ⟨S_, .f32⟩
  | .hbm, ⟨45, _⟩ => ⟨S6x512x512, .f32⟩
  | .hbm, ⟨46, _⟩ => ⟨S6x512x512, .f32⟩
  | .hbm, ⟨47, _⟩ => ⟨S_, .f32⟩
  | .hbm, ⟨48, _⟩ => ⟨S_, .f32⟩
  | _, _ => ⟨S8x6x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩

abbrev nD : Nat := 1
abbrev τ : Topo := Topo.v7x

variable {F : FTy → Type} [FloatOps F]

class Facts₀ : Prop where
  reducesTo_S8x6x4x512x512_S8x6x512x512_d2 : S8x6x4x512x512.ReducesTo [2] S8x6x512x512
  h_S_ : 0 < S_.numel
  bcast_S_S8x6x512x512 : S_.BroadcastsInDim S8x6x512x512 (![] : Fin 0 → Fin S8x6x512x512.rank)
  bcast_S8x6x512x512_S8x6x1x512x512_0_1_3_4 : S8x6x512x512.BroadcastsInDim S8x6x1x512x512 (![0, 1, 3, 4] : Fin 4 → Fin S8x6x1x512x512.rank)
  bcast_S8x6x1x512x512_S8x6x4x512x512_0_1_2_3_4 : S8x6x1x512x512.BroadcastsInDim S8x6x4x512x512 (![0, 1, 2, 3, 4] : Fin 5 → Fin S8x6x4x512x512.rank)
  bcast_S_S8x6x1x512x512 : S_.BroadcastsInDim S8x6x1x512x512 (![] : Fin 0 → Fin S8x6x1x512x512.rank)
  shapeCasts_S8x6x1x512x512_S8x6x1x512x512x1 : S8x6x1x512x512.ShapeCasts S8x6x1x512x512x1
  bcast_S_S8x6x1x512x512x1 : S_.BroadcastsInDim S8x6x1x512x512x1 (![] : Fin 0 → Fin S8x6x1x512x512x1.rank)
  bcast_S1_S1x1x1x1x1x1_5 : S1.BroadcastsInDim S1x1x1x1x1x1 (![5] : Fin 1 → Fin S1x1x1x1x1x1.rank)
  bcast_S1x1x1x1x1x1_S8x6x1x512x512x1_0_1_2_3_4_5 : S1x1x1x1x1x1.BroadcastsInDim S8x6x1x512x512x1 (![0, 1, 2, 3, 4, 5] : Fin 6 → Fin S8x6x1x512x512x1.rank)
  reducesTo_S8x6x1x512x512x1_S8x6x1x512x512_d5 : S8x6x1x512x512x1.ReducesTo [5] S8x6x1x512x512
  shapeCasts_S8x6x1x512x512_S8x6x512x512 : S8x6x1x512x512.ShapeCasts S8x6x512x512
  reducesTo_S8x6x512x512_S6x512x512_d0 : S8x6x512x512.ReducesTo [0] S6x512x512
  bcast_S_S6x512x512 : S_.BroadcastsInDim S6x512x512 (![] : Fin 0 → Fin S6x512x512.rank)
  reducesTo_S6x512x512_S_d0_1_2 : S6x512x512.ReducesTo [0, 1, 2] S_
  gather_S8x6x4x512x512_S8x6x1x512x512x1_S8x6x1x512x512_n_2_0134_0134_2_5_11111_wf : GatherDims.WF S8x6x4x512x512 S8x6x1x512x512x1 S8x6x1x512x512 [] [2] [0, 1, 3, 4] [2] [0, 1, 3, 4] 5 ![1, 1, 1, 1, 1]

variable [Facts₀]

def gather_S8x6x4x512x512_S8x6x1x512x512x1_S8x6x1x512x512_n_2_0134_0134_2_5_11111 : GatherDims S8x6x4x512x512 S8x6x1x512x512x1 S8x6x1x512x512 where
  offsetDims := []
  collapsedSliceDims := [2]
  operandBatchingDims := [0, 1, 3, 4]
  startIndicesBatchingDims := [0, 1, 3, 4]
  startIndexMap := [2]
  indexVectorDim := 5
  sliceSizes := ![1, 1, 1, 1, 1]
  wf := gather_S8x6x4x512x512_S8x6x1x512x512x1_S8x6x1x512x512_n_2_0134_0134_2_5_11111_wf

class Facts : Prop extends Facts₀ where

variable [Facts]
-- ==== Proof.KernelValue.lean ====
/-
  What the kernel leaves in its result array, read off the run of its frame.

  The grid has 24 points, point t = 4 s + b for label plane s (6 of them) and batch block b (4 blocks of 2 entries).
  At each point the body adds to a 512 x 1 accumulator the row totals of the block's two batch entries, one after the other;
  the accumulator is reset to zero at b = 0 and, at b = 3, multiplied by 1/8 and stored as the result's block s.
-/
import proofs.«403553_j57294863728909_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The logits of batch entry `j` (of the two) of a point's block, as the body loads them. -/
abbrev slabP0 (x0 : Vec F S2x1x4x512x512 .f32) : Vec F S1x1x4x512x512 .f32 :=
  View.ld x0 (Rect.unit (s := S2x1x4x512x512) ![0, 0, 0, 0, 0] S1x1x4x512x512.size inb_S2x1x4x512x512_S1x1x4x512x512_0_0_0_0_0)
abbrev slabP1 (x0 : Vec F S2x1x4x512x512 .f32) : Vec F S1x1x4x512x512 .f32 :=
  View.ld x0 (Rect.unit (s := S2x1x4x512x512) ![1, 0, 0, 0, 0] S1x1x4x512x512.size inb_S2x1x4x512x512_S1x1x4x512x512_1_0_0_0_0)
/-- The labels of batch entry `j` of a point's block. -/
abbrev slabT0 (x1 : Vec F S2x1x512x512 .i32) : Vec F S1x1x512x512 .i32 :=
  View.ld x1 (Rect.unit (s := S2x1x512x512) ![0, 0, 0, 0] S1x1x512x512.size inb_S2x1x512x512_S1x1x512x512_0_0_0_0)
abbrev slabT1 (x1 : Vec F S2x1x512x512 .i32) : Vec F S1x1x512x512 .i32 :=
  View.ld x1 (Rect.unit (s := S2x1x512x512) ![1, 0, 0, 0] S1x1x512x512.size inb_S2x1x512x512_S1x1x512x512_1_0_0_0)

/-- One point's update of the accumulator `xs`: the first entry's row totals added, then the second's. -/
def blockStep (xs : Vec F S512x1 .f32) (x0 : Vec F S2x1x4x512x512 .f32) (x1 : Vec F S2x1x512x512 .i32) : Vec F S512x1 .f32 :=
  k0_pay1 (k0_pay5 xs (k0_pay4 (slabP0 x0) (slabT0 x1))) (k0_pay6 (slabP1 x0) (slabT1 x1))

/-- A point that is neither first nor last in its plane leaves the accumulator updated. -/
theorem sout_B (c : Dev nD) (i : grid0.Coords) (arg2 : Memref sig .tc .vmem S2x1x4x512x512 .f32) (harg2 : arg2.IsWhole) (arg3 : Memref sig .tc .vmem S2x1x512x512 .i32) (harg3 : arg3.IsWhole) (arg4 : Memref sig .tc .vmem S1x512x1 .f32) (harg4 : arg4.IsWhole) (arg5 : Memref sig .tc .vmem S512x1 .f32) (harg5 : arg5.IsWhole) (hc0 : ¬cond0_0 i) (hc1 : ¬cond0_1 i)
    (x0 : Vec F S2x1x4x512x512 .f32) (x1 : Vec F S2x1x512x512 .i32) (xs0 : Vec F S512x1 .f32) :
    sout0_B_0 c i arg2 harg2 arg3 harg3 arg4 harg4 arg5 harg5 hc0 hc1 x0 x1 xs0 = blockStep xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_cons_unit_zero (S := S512x1) hz2]
  unfold blockStep
  simp only [View.readAt_eq_ld, harg2.read_unread, harg3.read_unread, harg5.read_unread, View.ld_unit_zero (S := S512x1) hz2,
    View.readCov_cons_toLoadRect]

/-- The first point of a plane resets the accumulator and then updates it. -/
theorem sout_A (c : Dev nD) (i : grid0.Coords) (arg2 : Memref sig .tc .vmem S2x1x4x512x512 .f32) (harg2 : arg2.IsWhole) (arg3 : Memref sig .tc .vmem S2x1x512x512 .i32) (harg3 : arg3.IsWhole) (arg4 : Memref sig .tc .vmem S1x512x1 .f32) (harg4 : arg4.IsWhole) (arg5 : Memref sig .tc .vmem S512x1 .f32) (harg5 : arg5.IsWhole) (hc0 : cond0_0 i) (hc1 : ¬cond0_1 i)
    (x0 : Vec F S2x1x4x512x512 .f32) (x1 : Vec F S2x1x512x512 .i32) :
    sout0_A_0 c i arg2 harg2 arg3 harg3 arg4 harg4 arg5 harg5 hc0 hc1 x0 x1 = blockStep (k0_pay3 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) hz2]
  unfold blockStep
  simp only [View.readAt_eq_ld, harg2.read_unread, harg3.read_unread, harg5.read_unread, View.ld_unit_zero (S := S512x1) hz2,
    View.readCov_cons_toLoadRect]

/-- The last point of a plane updates the accumulator … -/
theorem sout_C (c : Dev nD) (i : grid0.Coords) (arg2 : Memref sig .tc .vmem S2x1x4x512x512 .f32) (harg2 : arg2.IsWhole) (arg3 : Memref sig .tc .vmem S2x1x512x512 .i32) (harg3 : arg3.IsWhole) (arg4 : Memref sig .tc .vmem S1x512x1 .f32) (harg4 : arg4.IsWhole) (arg5 : Memref sig .tc .vmem S512x1 .f32) (harg5 : arg5.IsWhole) (hc0 : ¬cond0_0 i) (hc1 : cond0_1 i)
    (x0 : Vec F S2x1x4x512x512 .f32) (x1 : Vec F S2x1x512x512 .i32) (xs0 : Vec F S512x1 .f32) :
    sout0_C_0 c i arg2 harg2 arg3 harg3 arg4 harg4 arg5 harg5 hc0 hc1 x0 x1 xs0 = blockStep xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_cons_unit_zero (S := S512x1) hz2]
  unfold blockStep
  simp only [View.readAt_eq_ld, harg2.read_unread, harg3.read_unread, harg5.read_unread, View.ld_unit_zero (S := S512x1) hz2,
    View.readCov_cons_toLoadRect]

/-- … and stores an eighth of it as the plane's block of the result. -/
theorem out_C (c : Dev nD) (i : grid0.Coords) (arg2 : Memref sig .tc .vmem S2x1x4x512x512 .f32) (harg2 : arg2.IsWhole) (arg3 : Memref sig .tc .vmem S2x1x512x512 .i32) (harg3 : arg3.IsWhole) (arg4 : Memref sig .tc .vmem S1x512x1 .f32) (harg4 : arg4.IsWhole) (arg5 : Memref sig .tc .vmem S512x1 .f32) (harg5 : arg5.IsWhole) (hc0 : ¬cond0_0 i) (hc1 : cond0_1 i)
    (x0 : Vec F S2x1x4x512x512 .f32) (x1 : Vec F S2x1x512x512 .i32) (xs0 : Vec F S512x1 .f32) :
    out0_C_2 c i arg2 harg2 arg3 harg3 arg4 harg4 arg5 harg5 hc0 hc1 x0 x1 xs0 = k0_pay2 (blockStep xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x512x1) hz3]
  unfold blockStep
  simp only [View.readAt_eq_ld, harg2.read_unread, harg3.read_unread, harg5.read_unread, View.ld_unit_zero (S := S512x1) hz2,
    View.readCov_cons_toLoadRect]

variable (m : (ℓ : Loc nD τ sig) → Buf (Elt F) ℓ) (ρ : Dev nD → PrngReg)

/-- A point's block of logits and of labels, at their literal types. -/
abbrev pblk (c : Dev nD) (t : Fin cfg0.N) : Vec F S2x1x4x512x512 .f32 := iblk m c 0 t
abbrev tblk (c : Dev nD) (t : Fin cfg0.N) : Vec F S2x1x512x512 .i32 := iblk m c 1 t

/-- Point `4 s + b`: plane `s`, batch block `b`. -/
def pt (s : Fin 6) (b : Fin 4) : Fin cfg0.N :=
  ⟨4 * s.val + b.val, by have := s.isLt; have := b.isLt; rw [show cfg0.N = 24 from N_0]; omega⟩

theorem outs_congr (c : Dev nD) {k k' : ℕ} (e : k = k') (hk : k < cfg0.N) (hk' : k' < cfg0.N) :
    outsAt0 m c k hk = outsAt0 m c k' hk' := by subst e; rfl

/-- The accumulator after a plane's first point, after a middle point, after its last point; and the block stored there. -/
theorem snd_A (c : Dev nD) (t : Fin cfg0.N) (h0 : t.val % 4 = 0) (h1 : ¬t.val % 4 = 3) :
    (outsAt0 m c t.val t.isLt).2 = blockStep (k0_pay3 (F := F)) (pblk m c t) (tblk m c t) := by
  rw [outsAt0_A m c t h0 h1]
  dsimp only
  exact sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (pblk m c t) (tblk m c t)

theorem snd_B (c : Dev nD) (t : Fin cfg0.N) (h0 : ¬t.val % 4 = 0) (h1 : ¬t.val % 4 = 3) :
    (outsAt0 m c t.val t.isLt).2
      = blockStep (outsAt0 m c (t.val - 1) (Nat.lt_of_le_of_lt (Nat.sub_le _ _) t.isLt)).2 (pblk m c t) (tblk m c t) := by
  rw [outsAt0_B m c t h0 h1]
  dsimp only
  exact sout_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (pblk m c t) (tblk m c t)
    (outsAt0 m c (t.val - 1) (Nat.lt_of_le_of_lt (Nat.sub_le _ _) t.isLt)).2

theorem snd_C (c : Dev nD) (t : Fin cfg0.N) (h0 : ¬t.val % 4 = 0) (h1 : t.val % 4 = 3) :
    (outsAt0 m c t.val t.isLt).2
      = blockStep (outsAt0 m c (t.val - 1) (Nat.lt_of_le_of_lt (Nat.sub_le _ _) t.isLt)).2 (pblk m c t) (tblk m c t) := by
  rw [outsAt0_C m c t h0 h1]
  dsimp only
  exact sout_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (pblk m c t) (tblk m c t)
    (outsAt0 m c (t.val - 1) (Nat.lt_of_le_of_lt (Nat.sub_le _ _) t.isLt)).2

theorem fst_C (c : Dev nD) (t : Fin cfg0.N) (h0 : ¬t.val % 4 = 0) (h1 : t.val % 4 = 3) :
    (outsAt0 m c t.val t.isLt).1
      = k0_pay2 (blockStep (outsAt0 m c (t.val - 1) (Nat.lt_of_le_of_lt (Nat.sub_le _ _) t.isLt)).2 (pblk m c t) (tblk m c t)) := by
  rw [outsAt0_C m c t h0 h1]
  dsimp only
  exact out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (pblk m c t) (tblk m c t)
    (outsAt0 m c (t.val - 1) (Nat.lt_of_le_of_lt (Nat.sub_le _ _) t.isLt)).2

/-- A plane's accumulator through its four points, from zero. -/
def acc0 (c : Dev nD) (s : Fin 6) : Vec F S512x1 .f32 := blockStep (k0_pay3 (F := F)) (pblk m c (pt s 0)) (tblk m c (pt s 0))
def acc1 (c : Dev nD) (s : Fin 6) : Vec F S512x1 .f32 := blockStep (acc0 m c s) (pblk m c (pt s 1)) (tblk m c (pt s 1))
def acc2 (c : Dev nD) (s : Fin 6) : Vec F S512x1 .f32 := blockStep (acc1 m c s) (pblk m c (pt s 2)) (tblk m c (pt s 2))
def acc3 (c : Dev nD) (s : Fin 6) : Vec F S512x1 .f32 := blockStep (acc2 m c s) (pblk m c (pt s 3)) (tblk m c (pt s 3))

theorem snd_pt0 (c : Dev nD) (s : Fin 6) : (outsAt0 m c (pt s 0).val (pt s 0).isLt).2 = acc0 m c s :=
  snd_A m c (pt s 0) (by show (4 * s.val + 0) % 4 = 0; omega) (by show ¬(4 * s.val + 0) % 4 = 3; omega)

theorem snd_pt1 (c : Dev nD) (s : Fin 6) : (outsAt0 m c (pt s 1).val (pt s 1).isLt).2 = acc1 m c s := by
  rw [snd_B m c (pt s 1) (by show ¬(4 * s.val + 1) % 4 = 0; omega) (by show ¬(4 * s.val + 1) % 4 = 3; omega),
    outs_congr m c (show (pt s 1).val - 1 = (pt s 0).val from by show 4 * s.val + 1 - 1 = 4 * s.val + 0; omega) _ (pt s 0).isLt,
    snd_pt0]
  rfl

theorem snd_pt2 (c : Dev nD) (s : Fin 6) : (outsAt0 m c (pt s 2).val (pt s 2).isLt).2 = acc2 m c s := by
  rw [snd_B m c (pt s 2) (by show ¬(4 * s.val + 2) % 4 = 0; omega) (by show ¬(4 * s.val + 2) % 4 = 3; omega),
    outs_congr m c (show (pt s 2).val - 1 = (pt s 1).val from by show 4 * s.val + 2 - 1 = 4 * s.val + 1; omega) _ (pt s 1).isLt,
    snd_pt1]
  rfl

theorem fst_pt3 (c : Dev nD) (s : Fin 6) : (outsAt0 m c (pt s 3).val (pt s 3).isLt).1 = k0_pay2 (acc3 m c s) := by
  rw [fst_C m c (pt s 3) (by show ¬(4 * s.val + 3) % 4 = 0; omega) (by show (4 * s.val + 3) % 4 = 3; omega),
    outs_congr m c (show (pt s 3).val - 1 = (pt s 2).val from by show 4 * s.val + 3 - 1 = 4 * s.val + 2; omega) _ (pt s 2).isLt,
    snd_pt2]
  rfl

/-! ## The result array -/

/-- Where the result's window sits at each point: block `t / 4` along the plane axis. -/
theorem idx2_facts : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- The result array: entry (s, h, 0) is row `h` of an eighth of plane `s`'s accumulated row totals. -/
def resArr (c : Dev nD) : Buf (Elt F) ((c : Thread nD τ).loc main_v0) :=
  fun i => k0_pay2 (acc3 m c (i 0)) (ix3 0 (i 1) (i 2))

theorem resArr_eq (c : Dev nD) (i : S6x512x1.Idx) (s : Fin 6) (j : S1x512x1.Idx) (h0 : (i 0).val = s.val)
    (h1 : (i 1).val = (j 1).val) : resArr m c i = k0_pay2 (acc3 m c s) j := by
  unfold resArr
  have e0 : (i 0 : Fin 6) = s := Fin.ext h0
  have ej : (ix3 0 (i 1) (i 2) : S1x512x1.Idx) = j := by
    funext a
    match a with
    | ⟨0, _⟩ => exact Subsingleton.elim (α := Fin 1) _ _
    | ⟨1, _⟩ => exact Fin.ext h1
    | ⟨2, _⟩ => exact Subsingleton.elim (α := Fin 1) _ _
  rw [e0, ej]

/-- What a plane's last point writes back is the plane's block of `resArr`. -/
theorem flushed_eq (c : Dev nD) (t : Fin cfg0.N) (hf : (cfg0.win 2).flush t = true) :
    (dats m 0 c).flushed 2 t = ((cfg0.win 2).blk t).view.read (Elt F) (resArr m c) := by
  have h3 : t.val % 4 = 3 := (flush0_2 t).mp hf
  have hN : t.val < 24 := lt_of_lt_of_eq t.isLt (show cfg0.N = 24 from N_0)
  obtain ⟨s, rfl⟩ : ∃ s : Fin 6, t = pt s 3 :=
    ⟨⟨t.val / 4, by omega⟩, Fin.ext (by show t.val = 4 * (t.val / 4) + 3; omega)⟩
  show (cfg0.win 2).cut (grid0.coords (pt s 3)) ((dats m 0 c).after 2 (pt s 3)) = _
  rw [after0_2, fst_pt3]
  obtain ⟨e0, e1, e2⟩ := idx2_facts (pt s 3)
  have hp : (pt s 3).val = 4 * s.val + 3 := rfl
  funext j
  show k0_pay2 (acc3 m c s) j = resArr m c (((cfg0.win 2).blk (pt s 3)).view.emb j)
  refine (resArr_eq m c _ s j ?_ ?_).symm
  · show win0_2.index (pt s 3) (0 : Fin 3) * 1 + 1 * (j 0).val = s.val
    have hj : (j 0).val < 1 := (j 0).isLt
    omega
  · show win0_2.index (pt s 3) (1 : Fin 3) * 512 + 1 * (j 1).val = (j 1).val
    omega

/-- Every entry of the result array lies in the block some plane's last point writes back. -/
theorem covered (c : Dev nD) (i : S6x512x1.Idx) :
    ∃ t : Fin cfg0.N, (cfg0.win 2).flush t = true ∧ i ∈ ((cfg0.win 2).blk t).view.set := by
  have hi0 : (i 0).val < 6 := (i 0).isLt
  have hi1 : (i 1).val < 512 := (i 1).isLt
  have hi2 : (i 2).val < 1 := (i 2).isLt
  refine ⟨pt ⟨(i 0).val, hi0⟩ 3, (flush0_2 _).mpr (by show (4 * (i 0).val + 3) % 4 = 3; omega), ?_⟩
  obtain ⟨e0, e1, e2⟩ := idx2_facts (pt ⟨(i 0).val, hi0⟩ 3)
  have hp : (pt ⟨(i 0).val, hi0⟩ 3).val = 4 * (i 0).val + 3 := rfl
  show i ∈ ((View.whole main_v0).slice (win0_2.rect (pt ⟨(i 0).val, hi0⟩ 3))).set
  rw [View.set_slice_whole, Rect.mem_set_unit]
  intro a
  match a with
  | ⟨0, _⟩ =>
    show win0_2.index (pt ⟨(i 0).val, hi0⟩ 3) (0 : Fin 3) * 1 ≤ (i 0).val
      ∧ (i 0).val < win0_2.index (pt ⟨(i 0).val, hi0⟩ 3) (0 : Fin 3) * 1 + 1
    omega
  | ⟨1, _⟩ =>
    show win0_2.index (pt ⟨(i 0).val, hi0⟩ 3) (1 : Fin 3) * 512 ≤ (i 1).val
      ∧ (i 1).val < win0_2.index (pt ⟨(i 0).val, hi0⟩ 3) (1 : Fin 3) * 512 + 512
    omega
  | ⟨2, _⟩ =>
    show win0_2.index (pt ⟨(i 0).val, hi0⟩ 3) (2 : Fin 3) * 1 ≤ (i 2).val
      ∧ (i 2).val < win0_2.index (pt ⟨(i 0).val, hi0⟩ 3) (2 : Fin 3) * 1 + 1
    omega

/-- So the result array ends at `resArr`. -/
theorem final (c : Dev nD) : (dats m 0 c).arrAt 2 cfg0.N = resArr m c :=
  (dats m 0 c).arrAt_eq_of_cover 2 (resArr m c) (flushed_eq m c) (covered c)

/-- The program's result: the host's sum of the result array over all its axes, from zero. -/
def result (c : Dev nD) : Buf (Elt F) ((c : Thread nD τ).loc main_v1) :=
  Host.reduceAdd (resArr m c) (constant S_ .f32 0x00000000#32) reducesTo_S6x512x1_S_d0_1_2 h_S_

theorem tail_eq (c : Dev nD) : Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = resArr m c :=
    (Pipeline.withArrays_arr spec0 launch0.win.arr_inj c _ _ 2).trans (final m c)
  rw [e]
  rfl

/-- The run, read: the result at the host's sum of `resArr`, the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Spec.lean ====
/-
  The mathematics both programs compute, stated once, over the whole argument arrays.

  For logits `P[n, s, c, h, w]` (8 x 6 x 4 x 512 x 512) and labels `T[n, s, h, w]`, the per-pixel cross entropy is
      nll n s h w = log (sum over the 4 classes c of exp P[n, s, c, h, w]) - P[n, s, cls T[n, s, h, w], h, w],
  and the loss is the sum over (s, h, w) of the batch mean over n of it.  The kernel arrives at the loss as the sum over
  (s, h) of an eighth of the row totals accumulated batch entry by batch entry; the reference as the sum over (s, h, w)
  of an eighth of the batch total.  `kernelShape` and `refShape` are those two arrangements of one per-pixel function.
-/
import Mathlib.Analysis.SpecialFunctions.Log.Basic
import Idealize.ShloMosaic.PureOps.Ideal
import Idealize.ShloMosaic.Lib.ValueIdx

noncomputable section

open scoped BigOperators

namespace Cert.CrossEntropy

open Idealize.ShloMosaic Idealize.ShloMosaic.ValueIdx

/-- The logits' shape, the labels' shape, the kernel's per-(s, h) partial results, the reference's per-pixel batch means. -/
abbrev SP : Shape := ⟨5, ![8, 6, 4, 512, 512]⟩
abbrev ST : Shape := ⟨4, ![8, 6, 512, 512]⟩
abbrev SO : Shape := ⟨3, ![6, 512, 1]⟩
abbrev SM : Shape := ⟨3, ![6, 512, 512]⟩

/-- The class a label word selects: its two low bits (for a label in `[0, 4)` the label itself; for one in `[-4, 0)` the
    label plus four, the class Python's negative indexing names). -/
def cls (t : BitVec 32) : Fin 4 := ⟨t.toNat % 4, Nat.mod_lt _ (by decide)⟩

/-- The per-pixel cross entropy over the reals. -/
def nll (p : SP.Idx → ℝ) (T : ST.Idx → BitVec 32) (n : Fin 8) (s : Fin 6) (h w : Fin 512) : ℝ :=
  Real.log (∑ c : Fin 4, Real.exp (p (ix5 n s c h w))) - p (ix5 n s (cls (T (ix4 n s h w))) h w)

/-- Every logit is a real number. -/
def Finite (P : SP.Idx → EReal) : Prop := ∀ i, P i = ((P i).toReal : EReal)

/-- Every label is an index Python accepts for an axis of extent 4. -/
def InRange (T : ST.Idx → BitVec 32) : Prop := ∀ j, (-4 : ℤ) ≤ (T j).toInt ∧ (T j).toInt < 4

/-- The per-pixel cross entropy of extended-real logits, through their real parts. -/
def pix (P : SP.Idx → EReal) (T : ST.Idx → BitVec 32) (n : Fin 8) (s : Fin 6) (h w : Fin 512) : EReal :=
  ((nll (fun i => (P i).toReal) T n s h w : ℝ) : EReal)

/-- A row's total of batch entry `n`. -/
def rowsum (g : Fin 8 → Fin 6 → Fin 512 → Fin 512 → EReal) (s : Fin 6) (h : Fin 512) (n : Fin 8) : EReal :=
  ∑ w : Fin 512, g n s h w

/-- The kernel's accumulation order over the batch: from zero, entry by entry. -/
def acc8 (r : Fin 8 → EReal) : EReal := (((((((0 + r 0) + r 1) + r 2) + r 3) + r 4) + r 5) + r 6) + r 7

/-- The kernel's arrangement: per (s, h) an eighth of the accumulated row totals, summed over (s, h). -/
def kernelShape (g : Fin 8 → Fin 6 → Fin 512 → Fin 512 → EReal) : EReal :=
  0 + ∑ i : SO.Idx, acc8 (rowsum g (i 0) (i 1)) * ((1 / 8 : ℝ) : EReal)

/-- The reference's arrangement: per pixel an eighth of the batch total, summed over (s, h, w). -/
def refShape (g : Fin 8 → Fin 6 → Fin 512 → Fin 512 → EReal) : EReal :=
  0 + ∑ i : SM.Idx, (0 + ∑ n : Fin 8, g n (i 0) (i 1) (i 2)) * ((1 / 8 : ℝ) : EReal)

end Cert.CrossEntropy

end
-- ==== Proof.KernelPixel.lean ====
/-
  One batch entry's row totals, as the kernel body computes them from a loaded slab of logits `x` (1 x 1 x 4 x 512 x 512)
  and of labels `tt` (1 x 1 x 512 x 512): for row `h` the sum over the 512 pixels `w` of
      log (sum over classes c of exp x[c, h, w]) - (the class the label's two low bits select, by a two-level select tree).
  For real logits and labels in [-4, 4) that is the sum of the real per-pixel cross entropies.
-/
import proofs.«403553_j57294863728909_3_alg».proof.Proof.Gen.KernelIdeal.Skeleton
import proofs.«403553_j57294863728909_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pixel

open Idealize.ShloMosaic Idealize.ShloMosaic.ValueIdx Cert.KernelIdeal Cert.KernelIdeal.Gen Cert.CrossEntropy

/-- The second batch entry of a point's block is run through the same arithmetic as the first. -/
theorem pay6_eq_pay4 {F : FTy → Type} [FloatOps F] : (k0_pay6 (F := F)) = (k0_pay4 (F := F)) := rfl

/-! ## The label's two low bits choose the class -/

/-- A 32-bit word whose signed value lies in `[-4, 4)` is one of eight words. -/
theorem label_cases (t : BitVec 32) (ht : (-4 : ℤ) ≤ t.toInt ∧ t.toInt < 4) :
    t = 0#32 ∨ t = 1#32 ∨ t = 2#32 ∨ t = 3#32 ∨ t = 4294967292#32 ∨ t = 4294967293#32 ∨ t = 4294967294#32
      ∨ t = 4294967295#32 := by
  obtain ⟨h1, h2⟩ := ht
  have e : t = BitVec.ofInt 32 t.toInt := (BitVec.ofInt_toInt).symm
  generalize t.toInt = z at h1 h2 e
  subst e
  interval_cases z <;> decide

/-- The two-level select tree on bit 1 (outer) and bit 0 (inner) of a label in `[-4, 4)` returns the entry of `p` at the
    class `cls t` the two low bits name. -/
theorem pick_cls (p : Fin 4 → EReal) (t : BitVec 32) (ht : (-4 : ℤ) ≤ t.toInt ∧ t.toInt < 4) :
    Scalar.select (IntOp.cmpi .eq (IntOp.andi (IntOp.shrsi .vector t 1#32) 1#32) 1#32)
      (Scalar.select (IntOp.cmpi .eq (IntOp.andi (IntOp.shrsi .vector t 0#32) 1#32) 1#32) (p 3) (p 2))
      (Scalar.select (IntOp.cmpi .eq (IntOp.andi (IntOp.shrsi .vector t 0#32) 1#32) 1#32) (p 1) (p 0))
      = p (cls t) := by
  rcases label_cases t ht with h | h | h | h | h | h | h | h <;> subst h <;> rfl

/-- The select tree over whole vectors, read at one index: the same tree on that index's label and entries. -/
theorem tree_apply {s : Shape} (t : IVec s 32) (p0 p1 p2 p3 : FVec Ideal s .f32) (i : s.Idx) :
    select (cmpi .eq (andi (shrsi t (broadcast s 1#32)) (broadcast s 1#32)) (broadcast s 1#32))
        (select (cmpi .eq (andi (shrsi t (broadcast s 0#32)) (broadcast s 1#32)) (broadcast s 1#32)) p3 p2)
        (select (cmpi .eq (andi (shrsi t (broadcast s 0#32)) (broadcast s 1#32)) (broadcast s 1#32)) p1 p0) i
      = Scalar.select (IntOp.cmpi .eq (IntOp.andi (IntOp.shrsi .vector (t i) 1#32) 1#32) 1#32)
          (Scalar.select (IntOp.cmpi .eq (IntOp.andi (IntOp.shrsi .vector (t i) 0#32) 1#32) 1#32) (p3 i) (p2 i))
          (Scalar.select (IntOp.cmpi .eq (IntOp.andi (IntOp.shrsi .vector (t i) 0#32) 1#32) 1#32) (p1 i) (p0 i)) := rfl

/-! ## The layout operations at a pixel -/

/-- The logits slab `[1, 1, 4, 512, 512]` viewed `[4, 512, 512]` reads, at `(c, h, w)`, the slab at `(0, 0, c, h, w)`. -/
theorem slab_apply {α : Type} (x : S1x1x4x512x512.Idx → α) (hc : S1x1x4x512x512.ShapeCasts S4x512x512)
    (c : Fin 4) (h w : Fin 512) : shapeCast S4x512x512 x hc (ix3 c h w) = x (ix5 0 0 c h w) :=
  shapeCast_apply x hc _ _ (by
    rw [Shape.rowMajor_val_five, Shape.rowMajor_val_three]
    show (((0 * 1 + 0) * 4 + c.val) * 512 + h.val) * 512 + w.val = (c.val * 512 + h.val) * 512 + w.val
    omega)

/-- The labels `[1, 1, 512, 512]` viewed `[512, 512]` read, at `(h, w)`, the labels at `(0, 0, h, w)`. -/
theorem labels_apply {α : Type} (t : S1x1x512x512.Idx → α) (hc : S1x1x512x512.ShapeCasts S512x512)
    (h w : Fin 512) : shapeCast S512x512 t hc (ix2 h w) = t (ix4 0 0 h w) :=
  shapeCast_apply t hc _ _ (by
    rw [Shape.rowMajor_val_four, Shape.rowMajor_val_two]
    show ((0 * 1 + 0) * 512 + h.val) * 512 + w.val = h.val * 512 + w.val
    omega)

/-- Class plane `c` of a `[4, 512, 512]` array, sliced out as `[1, 512, 512]` and viewed `[512, 512]`, reads, at
    `(h, w)`, the array at `(c, h, w)`. -/
theorem plane_apply {α : Type} (y : S4x512x512.Idx → α) (c : Fin 4)
    (hs : S4x512x512.Slices ![c.val, 0, 0] S1x512x512) (hc : S1x512x512.ShapeCasts S512x512) (h w : Fin 512) :
    shapeCast S512x512 (extractStridedSlice S1x512x512 ![c.val, 0, 0] y hs) hc (ix2 h w) = y (ix3 c h w) := by
  refine (shapeCast_1ab_ab_apply _ hc h w).trans ?_
  exact extractStridedSlice_apply _ y hs _ _ (fun a => match a with
    | ⟨0, _⟩ => by show c.val = c.val + 0; omega
    | ⟨1, _⟩ => by show h.val = 0 + h.val; omega
    | ⟨2, _⟩ => by show w.val = 0 + w.val; omega)

/-! ## The two sums -/

/-- The sum over the class axis of a `[4, 512, 512]` array, at pixel `(h, w)`: the sum over the four classes. -/
theorem classSum_apply (src : FVec Ideal S4x512x512 .f32) (h w : Fin 512) :
    multiReduction .add [0] S512x512 src 0x00000000#32 reduces_S4x512x512_S512x512 (.inl rfl) rfl (ix2 h w)
      = ∑ c : Fin 4, src (ix3 c h w) := by
  refine (Ideal.multiReduction_add_single src _ reduces_S4x512x512_S512x512 _ _ (ix2 h w)).trans ?_
  show ∑ c : Fin 4, src (reduces_S4x512x512_S512x512.lift (ix2 h w) c) = _
  refine Finset.sum_congr rfl fun c _ => congrArg src ?_
  funext a
  match a with
  | ⟨0, _⟩ => rfl
  | ⟨1, _⟩ => rfl
  | ⟨2, _⟩ => rfl

/-- The sum over the pixel axis of a `[512, 512]` array, at row `h`: the sum over the row's 512 pixels. -/
theorem rowSum_apply (src : FVec Ideal S512x512 .f32) (h : Fin 512) :
    multiReduction .add [1] S512 src 0x00000000#32 reduces_S512x512_S512 (.inl rfl) rfl (ix1 h)
      = ∑ w : Fin 512, src (ix2 h w) := by
  refine (Ideal.multiReduction_add_single src _ reduces_S512x512_S512 _ _ (ix1 h)).trans ?_
  show ∑ w : Fin 512, src (reduces_S512x512_S512.lift (ix1 h) w) = _
  refine Finset.sum_congr rfl fun w _ => congrArg src ?_
  funext a
  match a with
  | ⟨0, _⟩ => rfl
  | ⟨1, _⟩ => rfl

/-- A sum of four real numbers, taken in the extended reals, is the real sum. -/
theorem coe_sum_four (f : Fin 4 → ℝ) : ∑ c : Fin 4, ((f c : ℝ) : EReal) = ((∑ c : Fin 4, f c : ℝ) : EReal) := by
  rw [Fin.sum_univ_four, Fin.sum_univ_four, EReal.coe_add, EReal.coe_add, EReal.coe_add]

/-! ## One pixel -/

/-- The log-sum-exp of a pixel's four real logits is the real log-sum-exp: every exponential is a positive real, so the
    sum is a positive real and its logarithm is the real logarithm. -/
theorem lse_apply (x : Vec Ideal S1x1x4x512x512 .f32) (hx : ∀ i, x i = (((x i : EReal).toReal : ℝ) : EReal))
    (h w : Fin 512) :
    log (multiReduction (F := Ideal) .add [0] S512x512
          (exp (shapeCast S4x512x512 x shapeCasts_S1x1x4x512x512_S4x512x512)) 0x00000000#32
          reduces_S4x512x512_S512x512 (.inl rfl) rfl) (ix2 h w)
      = ((Real.log (∑ c : Fin 4, Real.exp ((x (ix5 0 0 c h w) : EReal).toReal)) : ℝ) : EReal) := by
  have hs : multiReduction (F := Ideal) .add [0] S512x512
        (exp (shapeCast S4x512x512 x shapeCasts_S1x1x4x512x512_S4x512x512)) 0x00000000#32
        reduces_S4x512x512_S512x512 (.inl rfl) rfl (ix2 h w)
      = ((∑ c : Fin 4, Real.exp ((x (ix5 0 0 c h w) : EReal).toReal) : ℝ) : EReal) := by
    refine (classSum_apply _ h w).trans ?_
    refine Eq.trans (Finset.sum_congr rfl fun c _ => ?_) (coe_sum_four _)
    show Ideal.exp (shapeCast S4x512x512 x shapeCasts_S1x1x4x512x512_S4x512x512 (ix3 c h w)) = _
    rw [slab_apply, hx (ix5 0 0 c h w), Ideal.exp_coe, EReal.toReal_coe]
  have hpos : 0 < ∑ c : Fin 4, Real.exp ((x (ix5 0 0 c h w) : EReal).toReal) :=
    Finset.sum_pos (fun c _ => Real.exp_pos _) Finset.univ_nonempty
  show Ideal.log _ = _
  rw [hs, Ideal.log_coe, if_neg (not_le.mpr hpos)]

/-- The select tree over the four class planes reads, at a pixel whose label lies in `[-4, 4)`, the logit of the class the
    label's two low bits name. -/
theorem sel_apply (x : Vec Ideal S1x1x4x512x512 .f32) (tt : Vec Ideal S1x1x512x512 .i32)
    (ht : ∀ j, (-4 : ℤ) ≤ (tt j : BitVec 32).toInt ∧ (tt j : BitVec 32).toInt < 4) (h w : Fin 512)
    (y : FVec Ideal S4x512x512 .f32) (hy : y = shapeCast S4x512x512 x shapeCasts_S1x1x4x512x512_S4x512x512)
    (t6 : IVec S512x512 32) (ht6 : t6 = shapeCast S512x512 tt shapeCasts_S1x1x512x512_S512x512) :
    select (cmpi .eq (andi (shrsi t6 (broadcast S512x512 1#32)) (broadcast S512x512 1#32)) (broadcast S512x512 1#32))
        (select (cmpi .eq (andi (shrsi t6 (broadcast S512x512 0#32)) (broadcast S512x512 1#32)) (broadcast S512x512 1#32))
          (shapeCast S512x512 (extractStridedSlice S1x512x512 ![3, 0, 0] y slices_S4x512x512_o3_0_0_S1x512x512)
            shapeCasts_S1x512x512_S512x512)
          (shapeCast S512x512 (extractStridedSlice S1x512x512 ![2, 0, 0] y slices_S4x512x512_o2_0_0_S1x512x512)
            shapeCasts_S1x512x512_S512x512))
        (select (cmpi .eq (andi (shrsi t6 (broadcast S512x512 0#32)) (broadcast S512x512 1#32)) (broadcast S512x512 1#32))
          (shapeCast S512x512 (extractStridedSlice S1x512x512 ![1, 0, 0] y slices_S4x512x512_o1_0_0_S1x512x512)
            shapeCasts_S1x512x512_S512x512)
          (shapeCast S512x512 (extractStridedSlice S1x512x512 ![0, 0, 0] y slices_S4x512x512_o0_0_0_S1x512x512)
            shapeCasts_S1x512x512_S512x512)) (ix2 h w)
      = x (ix5 0 0 (cls (tt (ix4 0 0 h w))) h w) := by
  refine (tree_apply _ _ _ _ _ _).trans ?_
  have e0 : shapeCast S512x512 (extractStridedSlice S1x512x512 ![0, 0, 0] y slices_S4x512x512_o0_0_0_S1x512x512)
      shapeCasts_S1x512x512_S512x512 (ix2 h w) = x (ix5 0 0 0 h w) :=
    (plane_apply y (0 : Fin 4) slices_S4x512x512_o0_0_0_S1x512x512 _ h w).trans (hy ▸ slab_apply x _ 0 h w)
  have e1 : shapeCast S512x512 (extractStridedSlice S1x512x512 ![1, 0, 0] y slices_S4x512x512_o1_0_0_S1x512x512)
      shapeCasts_S1x512x512_S512x512 (ix2 h w) = x (ix5 0 0 1 h w) :=
    (plane_apply y (1 : Fin 4) slices_S4x512x512_o1_0_0_S1x512x512 _ h w).trans (hy ▸ slab_apply x _ 1 h w)
  have e2 : shapeCast S512x512 (extractStridedSlice S1x512x512 ![2, 0, 0] y slices_S4x512x512_o2_0_0_S1x512x512)
      shapeCasts_S1x512x512_S512x512 (ix2 h w) = x (ix5 0 0 2 h w) :=
    (plane_apply y (2 : Fin 4) slices_S4x512x512_o2_0_0_S1x512x512 _ h w).trans (hy ▸ slab_apply x _ 2 h w)
  have e3 : shapeCast S512x512 (extractStridedSlice S1x512x512 ![3, 0, 0] y slices_S4x512x512_o3_0_0_S1x512x512)
      shapeCasts_S1x512x512_S512x512 (ix2 h w) = x (ix5 0 0 3 h w) :=
    (plane_apply y (3 : Fin 4) slices_S4x512x512_o3_0_0_S1x512x512 _ h w).trans (hy ▸ slab_apply x _ 3 h w)
  have e6 : t6 (ix2 h w) = tt (ix4 0 0 h w) := ht6 ▸ labels_apply tt _ h w
  rw [e0, e1, e2, e3, e6]
  exact pick_cls (fun c => x (ix5 0 0 c h w)) (tt (ix4 0 0 h w)) (ht _)

/-! ## The row total -/

/-- A row's total for one batch entry, over real logits and in-range labels: the sum over the row's pixels of the real
    per-pixel cross entropy. -/
theorem rowTotal_real (x : Vec Ideal S1x1x4x512x512 .f32) (tt : Vec Ideal S1x1x512x512 .i32)
    (hx : ∀ i, x i = (((x i : EReal).toReal : ℝ) : EReal))
    (ht : ∀ j, (-4 : ℤ) ≤ (tt j : BitVec 32).toInt ∧ (tt j : BitVec 32).toInt < 4) (h : Fin 512) :
    (k0_pay4 (F := Ideal) x tt (ix1 h) : EReal)
      = ∑ w : Fin 512, ((Real.log (∑ c : Fin 4, Real.exp ((x (ix5 0 0 c h w) : EReal).toReal))
          - (x (ix5 0 0 (cls (tt (ix4 0 0 h w))) h w) : EReal).toReal : ℝ) : EReal) := by
  unfold k0_pay4
  refine (rowSum_apply _ h).trans ?_
  refine Finset.sum_congr rfl fun w _ => ?_
  refine (subf_apply _ _ _).trans ?_
  rw [EReal.coe_sub]
  refine congrArg₂ (· - ·) (lse_apply x hx h w) ?_
  exact (sel_apply x tt ht h w _ rfl _ rfl).trans (hx _)

end Cert.KernelIdeal.Pixel

end
-- ==== Proof.KernelReal.lean ====
/-
  The kernel's result as a number: for real logits and labels in [-4, 4) it is the kernel's arrangement of the real
  per-pixel cross entropy.

  Point 4 s + b stages batch entries 2 b and 2 b + 1 of plane s; entry j of its block at (c, h, w) is the logit
  P[2 b + j, s, c, h, w], and likewise for the labels.  So a plane's accumulator ends, at row h, at the eight row totals
  added from zero in batch order, the stored block at an eighth of that, and the host's sum over the result array is the
  sum over (s, h).
-/
import proofs.«403553_j57294863728909_3_alg».proof.Proof.KernelValue
import proofs.«403553_j57294863728909_3_alg».proof.Proof.KernelPixel
import proofs.«403553_j57294863728909_3_alg».proof.Proof.Spec
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.KReal

open Cert.KernelIdeal Cert.KernelIdeal.Gen Cert.KernelIdeal.KValue Cert.KernelIdeal.Pixel Cert.CrossEntropy

variable (m : (ℓ : Loc nD τ sig) → Buf (Elt Ideal) ℓ)

/-! ## The constants -/

theorem ofBits_zero : Ideal.ofBits .f32 0x00000000#32 = 0 := by
  simp [Ideal.ofBits, Ideal.ieee]

theorem ofBits_eighth : Ideal.ofBits .f32 0x3E000000#32 = ((1 / 8 : ℝ) : EReal) := by
  simp [Ideal.ofBits, Ideal.ieee, -EReal.coe_mul]; norm_num

/-! ## Where the input windows sit -/

theorem idx0_facts : ∀ t : Fin cfg0.N, win0_0.index t (0 : Fin 5) = t.val % 4 ∧ win0_0.index t (1 : Fin 5) = t.val / 4
    ∧ win0_0.index t (2 : Fin 5) = 0 ∧ win0_0.index t (3 : Fin 5) = 0 ∧ win0_0.index t (4 : Fin 5) = 0 :=
  (by decide +kernel : ∀ t : Fin grid0.N, _)

theorem idx1_facts : ∀ t : Fin cfg0.N, win0_1.index t (0 : Fin 4) = t.val % 4 ∧ win0_1.index t (1 : Fin 4) = t.val / 4
    ∧ win0_1.index t (2 : Fin 4) = 0 ∧ win0_1.index t (3 : Fin 4) = 0 :=
  (by decide +kernel : ∀ t : Fin grid0.N, _)

/-- Batch entry `2 b + j`. -/
def ent (b : Fin 4) (j : Fin 2) : Fin 8 := ⟨2 * b.val + j.val, by have := b.isLt; have := j.isLt; omega⟩

theorem slabP0_apply (c : Dev nD) (s : Fin 6) (b : Fin 4) (cc : Fin 4) (h w : Fin 512) :
    slabP0 (pblk m c (pt s b)) (ix5 0 0 cc h w)
      = m ((c : Thread nD τ).loc main_arg0) (ix5 (ent b 0) s cc h w) := by
  obtain ⟨e0, e1, e2, e3, e4⟩ := idx0_facts (pt s b)
  have hp : (pt s b).val = 4 * s.val + b.val := rfl
  have hb := b.isLt
  have hs := s.isLt
  show V m c main_arg0 _ = m ((c : Thread nD τ).loc main_arg0) _
  unfold V
  congr 1
  funext a
  apply Fin.ext
  match a with
  | ⟨0, _⟩ => show win0_0.index (pt s b) (0 : Fin 5) * 2 + 1 * (0 + 1 * 0) = 2 * b.val + 0; omega
  | ⟨1, _⟩ => show win0_0.index (pt s b) (1 : Fin 5) * 1 + 1 * (0 + 1 * 0) = s.val; omega
  | ⟨2, _⟩ => show win0_0.index (pt s b) (2 : Fin 5) * 4 + 1 * (0 + 1 * cc.val) = cc.val; omega
  | ⟨3, _⟩ => show win0_0.index (pt s b) (3 : Fin 5) * 512 + 1 * (0 + 1 * h.val) = h.val; omega
  | ⟨4, _⟩ => show win0_0.index (pt s b) (4 : Fin 5) * 512 + 1 * (0 + 1 * w.val) = w.val; omega

theorem slabP1_apply (c : Dev nD) (s : Fin 6) (b : Fin 4) (cc : Fin 4) (h w : Fin 512) :
    slabP1 (pblk m c (pt s b)) (ix5 0 0 cc h w)
      = m ((c : Thread nD τ).loc main_arg0) (ix5 (ent b 1) s cc h w) := by
  obtain ⟨e0, e1, e2, e3, e4⟩ := idx0_facts (pt s b)
  have hp : (pt s b).val = 4 * s.val + b.val := rfl
  have hb := b.isLt
  have hs := s.isLt
  show V m c main_arg0 _ = m ((c : Thread nD τ).loc main_arg0) _
  unfold V
  congr 1
  funext a
  apply Fin.ext
  match a with
  | ⟨0, _⟩ => show win0_0.index (pt s b) (0 : Fin 5) * 2 + 1 * (1 + 1 * 0) = 2 * b.val + 1; omega
  | ⟨1, _⟩ => show win0_0.index (pt s b) (1 : Fin 5) * 1 + 1 * (0 + 1 * 0) = s.val; omega
  | ⟨2, _⟩ => show win0_0.index (pt s b) (2 : Fin 5) * 4 + 1 * (0 + 1 * cc.val) = cc.val; omega
  | ⟨3, _⟩ => show win0_0.index (pt s b) (3 : Fin 5) * 512 + 1 * (0 + 1 * h.val) = h.val; omega
  | ⟨4, _⟩ => show win0_0.index (pt s b) (4 : Fin 5) * 512 + 1 * (0 + 1 * w.val) = w.val; omega

theorem slabT0_apply (c : Dev nD) (s : Fin 6) (b : Fin 4) (h w : Fin 512) :
    slabT0 (tblk m c (pt s b)) (ix4 0 0 h w)
      = m ((c : Thread nD τ).loc main_arg1) (ix4 (ent b 0) s h w) := by
  obtain ⟨e0, e1, e2, e3⟩ := idx1_facts (pt s b)
  have hp : (pt s b).val = 4 * s.val + b.val := rfl
  have hb := b.isLt
  have hs := s.isLt
  show V m c main_arg1 _ = m ((c : Thread nD τ).loc main_arg1) _
  unfold V
  congr 1
  funext a
  apply Fin.ext
  match a with
  | ⟨0, _⟩ => show win0_1.index (pt s b) (0 : Fin 4) * 2 + 1 * (0 + 1 * 0) = 2 * b.val + 0; omega
  | ⟨1, _⟩ => show win0_1.index (pt s b) (1 : Fin 4) * 1 + 1 * (0 + 1 * 0) = s.val; omega
  | ⟨2, _⟩ => show win0_1.index (pt s b) (2 : Fin 4) * 512 + 1 * (0 + 1 * h.val) = h.val; omega
  | ⟨3, _⟩ => show win0_1.index (pt s b) (3 : Fin 4) * 512 + 1 * (0 + 1 * w.val) = w.val; omega

theorem slabT1_apply (c : Dev nD) (s : Fin 6) (b : Fin 4) (h w : Fin 512) :
    slabT1 (tblk m c (pt s b)) (ix4 0 0 h w)
      = m ((c : Thread nD τ).loc main_arg1) (ix4 (ent b 1) s h w) := by
  obtain ⟨e0, e1, e2, e3⟩ := idx1_facts (pt s b)
  have hp : (pt s b).val = 4 * s.val + b.val := rfl
  have hb := b.isLt
  have hs := s.isLt
  show V m c main_arg1 _ = m ((c : Thread nD τ).loc main_arg1) _
  unfold V
  congr 1
  funext a
  apply Fin.ext
  match a with
  | ⟨0, _⟩ => show win0_1.index (pt s b) (0 : Fin 4) * 2 + 1 * (1 + 1 * 0) = 2 * b.val + 1; omega
  | ⟨1, _⟩ => show win0_1.index (pt s b) (1 : Fin 4) * 1 + 1 * (0 + 1 * 0) = s.val; omega
  | ⟨2, _⟩ => show win0_1.index (pt s b) (2 : Fin 4) * 512 + 1 * (0 + 1 * h.val) = h.val; omega
  | ⟨3, _⟩ => show win0_1.index (pt s b) (3 : Fin 4) * 512 + 1 * (0 + 1 * w.val) = w.val; omega

/-! ## The body's layout steps at an index -/

/-- A length-512 vector recast as a 512 x 1 column reads, at (h, 0), its entry h. -/
theorem cast_col (v : FVec Ideal S512 .f32) (hc : S512.ShapeCasts S512x1) (h : Fin 512) :
    shapeCast S512x1 v hc (ix2 h 0) = v (ix1 h) :=
  shapeCast_apply v hc (ix2 h 0) (ix1 h) (by
    rw [Shape.rowMajor_val_one, Shape.rowMajor_val_two]
    show h.val = h.val * 1 + 0
    omega)

/-- One point's update of the accumulator, at row h: the two entries' row totals added in turn. -/
theorem blockStep_apply (xs : Vec Ideal S512x1 .f32) (x0 : Vec Ideal S2x1x4x512x512 .f32) (x1 : Vec Ideal S2x1x512x512 .i32)
    (h : Fin 512) :
    blockStep xs x0 x1 (ix2 h 0)
      = (xs (ix2 h 0) + k0_pay4 (F := Ideal) (slabP0 x0) (slabT0 x1) (ix1 h))
        + k0_pay4 (F := Ideal) (slabP1 x0) (slabT1 x1) (ix1 h) := by
  unfold blockStep k0_pay1 k0_pay5
  rw [pay6_eq_pay4]
  dsimp only
  simp only [shapeCast_self]
  show (xs (ix2 h 0) + shapeCast S512x1 _ _ (ix2 h 0)) + shapeCast S512x1 _ _ (ix2 h 0) = _
  rw [cast_col, cast_col]

/-- The reset stores zero. -/
theorem pay3_apply (h : Fin 512) : k0_pay3 (F := Ideal) (ix2 h 0) = 0 := by
  unfold k0_pay3
  simp only [shapeCast_self]
  exact ofBits_zero

/-- The stored block is an eighth of the accumulator. -/
theorem pay2_apply (v : Vec Ideal S512x1 .f32) (h : Fin 512) (z : Fin 1) :
    k0_pay2 (F := Ideal) v (ix3 0 h z) = v (ix2 h z) * ((1 / 8 : ℝ) : EReal) := by
  unfold k0_pay2
  rw [shapeCast_ab_1ab_apply]
  show v (ix2 h z) * Ideal.ofBits .f32 0x3E000000#32 = _
  rw [ofBits_eighth]

/-! ## A plane's accumulator, as numbers -/

section
variable (c : Dev nD)

/-- The row total of the block's first entry at point (s, b): the row total of batch entry 2 b. -/
theorem row0 (hP : Finite (m ((c : Thread nD τ).loc main_arg0))) (hT : InRange (m ((c : Thread nD τ).loc main_arg1)))
    (s : Fin 6) (b : Fin 4) (h : Fin 512) :
    k0_pay4 (F := Ideal) (slabP0 (pblk m c (pt s b))) (slabT0 (tblk m c (pt s b))) (ix1 h)
      = rowsum (pix (m ((c : Thread nD τ).loc main_arg0)) (m ((c : Thread nD τ).loc main_arg1))) s h (ent b 0) := by
  have hx : ∀ i, slabP0 (pblk m c (pt s b)) i = (((slabP0 (pblk m c (pt s b)) i : EReal).toReal : ℝ) : EReal) := fun i => hP _
  have ht : ∀ j, (-4 : ℤ) ≤ (slabT0 (tblk m c (pt s b)) j : BitVec 32).toInt
      ∧ (slabT0 (tblk m c (pt s b)) j : BitVec 32).toInt < 4 := fun j => hT _
  refine (rowTotal_real (slabP0 (pblk m c (pt s b))) (slabT0 (tblk m c (pt s b))) hx ht h).trans ?_
  unfold rowsum pix nll
  refine Finset.sum_congr rfl fun w _ => ?_
  simp only [slabP0_apply, slabT0_apply]

/-- The row total of the block's second entry at point (s, b): the row total of batch entry 2 b + 1. -/
theorem row1 (hP : Finite (m ((c : Thread nD τ).loc main_arg0))) (hT : InRange (m ((c : Thread nD τ).loc main_arg1)))
    (s : Fin 6) (b : Fin 4) (h : Fin 512) :
    k0_pay4 (F := Ideal) (slabP1 (pblk m c (pt s b))) (slabT1 (tblk m c (pt s b))) (ix1 h)
      = rowsum (pix (m ((c : Thread nD τ).loc main_arg0)) (m ((c : Thread nD τ).loc main_arg1))) s h (ent b 1) := by
  have hx : ∀ i, slabP1 (pblk m c (pt s b)) i = (((slabP1 (pblk m c (pt s b)) i : EReal).toReal : ℝ) : EReal) := fun i => hP _
  have ht : ∀ j, (-4 : ℤ) ≤ (slabT1 (tblk m c (pt s b)) j : BitVec 32).toInt
      ∧ (slabT1 (tblk m c (pt s b)) j : BitVec 32).toInt < 4 := fun j => hT _
  refine (rowTotal_real (slabP1 (pblk m c (pt s b))) (slabT1 (tblk m c (pt s b))) hx ht h).trans ?_
  unfold rowsum pix nll
  refine Finset.sum_congr rfl fun w _ => ?_
  simp only [slabP1_apply, slabT1_apply]

/-- After a plane's last point the accumulator holds, at row h, the eight row totals added from zero in batch order. -/
theorem acc3_apply (hP : Finite (m ((c : Thread nD τ).loc main_arg0))) (hT : InRange (m ((c : Thread nD τ).loc main_arg1)))
    (s : Fin 6) (h : Fin 512) :
    acc3 m c s (ix2 h 0)
      = acc8 (rowsum (pix (m ((c : Thread nD τ).loc main_arg0)) (m ((c : Thread nD τ).loc main_arg1))) s h) := by
  unfold acc3 acc2 acc1 acc0 acc8
  rw [blockStep_apply, blockStep_apply, blockStep_apply, blockStep_apply, pay3_apply,
    row0 m c hP hT s 0 h, row1 m c hP hT s 0 h, row0 m c hP hT s 1 h, row1 m c hP hT s 1 h,
    row0 m c hP hT s 2 h, row1 m c hP hT s 2 h, row0 m c hP hT s 3 h, row1 m c hP hT s 3 h]
  rfl

/-- The kernel's result: the kernel's arrangement of the real per-pixel cross entropy. -/
theorem result_eq (hP : Finite (m ((c : Thread nD τ).loc main_arg0))) (hT : InRange (m ((c : Thread nD τ).loc main_arg1))) :
    result m c = fun _ => kernelShape (pix (m ((c : Thread nD τ).loc main_arg0)) (m ((c : Thread nD τ).loc main_arg1))) := by
  funext i
  unfold result
  simp only [Host.reduceAdd, Ideal.hostReduceAdd_def]
  rw [Ideal.hostReduceAdd_total reducesTo_S6x512x1_S_d0_1_2 (fun b => b.elim0) (resArr m c) _ i]
  unfold kernelShape
  refine congrArg₂ (· + ·) ofBits_zero (Finset.sum_congr rfl fun j _ => ?_)
  obtain ⟨s, h, z, rfl⟩ : ∃ (s : Fin 6) (h : Fin 512) (z : Fin 1), j = ix3 s h z := ⟨j 0, j 1, j 2, eq_ix3 j⟩
  obtain rfl : z = 0 := Subsingleton.elim _ _
  show k0_pay2 (F := Ideal) (acc3 m c s) (ix3 0 h 0) = _
  rw [pay2_apply, acc3_apply m c hP hT]

end

end Cert.KernelIdeal.KReal

end
-- ==== Proof.RefMath.lean ====
/-
  The log-sum-exp shift over the reals: subtracting any real m from all four logits before exponentiating changes
  neither the log-softmax nor, therefore, the per-pixel cross entropy.
-/
import Mathlib.Analysis.SpecialFunctions.Log.Basic
import Mathlib.Algebra.BigOperators.Fin
import Mathlib.Data.EReal.Basic
import Idealize.ShloMosaic.PureOps.Ideal

noncomputable section

open scoped BigOperators

namespace Cert.CrossEntropy

open Idealize.ShloMosaic

/-- Over the reals: log (sum of exp (p c - m)) = log (sum of exp (p c)) - m. -/
theorem log_sum_exp_shift (p : Fin 4 → ℝ) (m : ℝ) :
    Real.log (∑ c : Fin 4, Real.exp (p c - m)) = Real.log (∑ c : Fin 4, Real.exp (p c)) - m := by
  have hpos : 0 < ∑ c : Fin 4, Real.exp (p c) := Finset.sum_pos (fun c _ => Real.exp_pos _) Finset.univ_nonempty
  have e : ∑ c : Fin 4, Real.exp (p c - m) = (∑ c : Fin 4, Real.exp (p c)) / Real.exp m := by
    rw [Finset.sum_div]
    exact Finset.sum_congr rfl fun c _ => Real.exp_sub _ _
  rw [e, Real.log_div hpos.ne' (Real.exp_ne_zero m), Real.log_exp]

/-- The negated shifted log-softmax of four real logits at class k, computed on the extended reals with the sum taken
    from zero, is the real cross entropy `log (sum of exp p) - p k`. -/
theorem neg_log_softmax_shift (p : Fin 4 → ℝ) (m : ℝ) (k : Fin 4) :
    -(((p k : EReal) - (m : EReal)) - Ideal.log (0 + ∑ c : Fin 4, Ideal.exp ((p c : EReal) - (m : EReal))))
      = ((Real.log (∑ c : Fin 4, Real.exp (p c)) - p k : ℝ) : EReal) := by
  have hpos : 0 < ∑ c : Fin 4, Real.exp (p c - m) := Finset.sum_pos (fun c _ => Real.exp_pos _) Finset.univ_nonempty
  have hsum : (0 : EReal) + ∑ c : Fin 4, Ideal.exp ((p c : EReal) - (m : EReal))
      = ((∑ c : Fin 4, Real.exp (p c - m) : ℝ) : EReal) := by
    rw [zero_add, Fin.sum_univ_four, Fin.sum_univ_four]
    simp only [← EReal.coe_sub, Ideal.exp_coe, ← EReal.coe_add]
  rw [hsum, Ideal.log_coe, if_neg (not_le.mpr hpos), log_sum_exp_shift]
  rw [← EReal.coe_sub, ← EReal.coe_sub, ← EReal.coe_neg]
  congr 1
  ring

end Cert.CrossEntropy

end
-- ==== Proof.RefValue.lean ====
/-
  What the reference computes: the sum over (s, h, w) of an eighth of the batch total of the per-pixel cross entropy.

  The reference takes the log-softmax of the logits over the class axis (with the usual shift by the class maximum),
  gathers it at the label (a negative label first moved up by four; a label outside [0, 4) after that would give the
  fill value instead), negates, sums over the batch, divides by 8 and sums over everything.  For real logits the shift
  cancels, and for a label in [-4, 4) the gathered class is the one its two low bits name.
-/
import proofs.«403553_j57294863728909_3_alg».proof.Proof.RefRead
import proofs.«403553_j57294863728909_3_alg».proof.Proof.Spec
import proofs.«403553_j57294863728909_3_alg».proof.Proof.RefMath
import Idealize.ShloMosaic.Lib.ValueIdx
import Idealize.ShloMosaic.Lib.ValueIdxRank6
import Idealize.ShloMosaic.Lib.ValueLayout
import Idealize.ShloMosaic.Lib.Pipeline.Value
import Idealize.ShloMosaic.PureOps.Ideal.Laws
import Mathlib.Data.Finset.Fold

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.CrossEntropy

/-! ## The constants -/

/-- The pattern of minus infinity denotes the bottom of the extended reals. -/
theorem ofBits_negInf : Ideal.ofBits .f32 0xFF800000#32 = (⊥ : EReal) := by
  simp [Ideal.ofBits, Ideal.ieee]

/-- The pattern of 8.0 denotes the real 8. -/
theorem ofBits_eight : Ideal.ofBits .f32 0x41000000#32 = ((8 : ℝ) : EReal) := by
  simp [Ideal.ofBits, Ideal.ieee, -EReal.coe_mul]; norm_num

/-! ## The label word -/

/-- The index word the reference gathers at: a negative label moved up by four. -/
def wrap (t : BitVec 32) : BitVec 32 :=
  Scalar.select (IntOp.cmpi .slt t 0#32) (IntOp.addi t 4#32) t

/-- A label in [-4, 4) is one of eight words. -/
theorem label_cases (t : BitVec 32) (ht : (-4 : ℤ) ≤ t.toInt ∧ t.toInt < 4) :
    t = 0#32 ∨ t = 1#32 ∨ t = 2#32 ∨ t = 3#32 ∨ t = 4294967292#32 ∨ t = 4294967293#32 ∨ t = 4294967294#32
      ∨ t = 4294967295#32 := by
  have hc : t.toInt = 0 ∨ t.toInt = 1 ∨ t.toInt = 2 ∨ t.toInt = 3 ∨ t.toInt = -4 ∨ t.toInt = -3 ∨ t.toInt = -2
      ∨ t.toInt = -1 := by omega
  rcases hc with h | h | h | h | h | h | h | h
  · exact .inl (BitVec.eq_of_toInt_eq (h.trans (by decide)))
  · exact .inr (.inl (BitVec.eq_of_toInt_eq (h.trans (by decide))))
  · exact .inr (.inr (.inl (BitVec.eq_of_toInt_eq (h.trans (by decide)))))
  · exact .inr (.inr (.inr (.inl (BitVec.eq_of_toInt_eq (h.trans (by decide))))))
  · exact .inr (.inr (.inr (.inr (.inl (BitVec.eq_of_toInt_eq (h.trans (by decide)))))))
  · exact .inr (.inr (.inr (.inr (.inr (.inl (BitVec.eq_of_toInt_eq (h.trans (by decide))))))))
  · exact .inr (.inr (.inr (.inr (.inr (.inr (.inl (BitVec.eq_of_toInt_eq (h.trans (by decide)))))))))
  · exact .inr (.inr (.inr (.inr (.inr (.inr (.inr (BitVec.eq_of_toInt_eq (h.trans (by decide)))))))))

/-- For a label in [-4, 4) the index word lies in [0, 3]: both range tests pass. -/
theorem wrap_inRange (t : BitVec 32) (ht : (-4 : ℤ) ≤ t.toInt ∧ t.toInt < 4) :
    IntOp.andi (IntOp.cmpi .sge (wrap t) 0#32) (IntOp.cmpi .sle (wrap t) 3#32) = 1#1 := by
  rcases label_cases t ht with rfl | rfl | rfl | rfl | rfl | rfl | rfl | rfl <;> decide

/-- For a label in [-4, 4) the index word, read signed and clamped to the class axis, is the class of its two low bits. -/
theorem wrap_cls (t : BitVec 32) (ht : (-4 : ℤ) ≤ t.toInt ∧ t.toInt < 4) :
    min (wrap t).toInt.toNat (4 - 1) = (cls t).val := by
  rcases label_cases t ht with rfl | rfl | rfl | rfl | rfl | rfl | rfl | rfl <;> decide

/-! ## The class maximum is a real number -/

/-- The maximum, from minus infinity, of finitely many reals over a nonempty set is a real. -/
theorem fold_max_real {ι : Type} (S : Finset ι) (hS : S.Nonempty) (f : ι → EReal) (hf : ∀ i, ∃ r : ℝ, f i = (r : EReal)) :
    ∃ m : ℝ, S.fold max ⊥ f = (m : EReal) := by
  have h1 : S.fold max ⊥ f < ⊤ :=
    (Finset.fold_max_lt _).2 ⟨bot_lt_top, fun i _ => by obtain ⟨r, hr⟩ := hf i; rw [hr]; exact EReal.coe_lt_top r⟩
  have h2 : ⊥ < S.fold max ⊥ f := by
    obtain ⟨i, hi⟩ := hS
    obtain ⟨r, hr⟩ := hf i
    exact (Finset.lt_fold_max _).2 (Or.inr ⟨i, hi, by rw [hr]; exact EReal.bot_lt_coe r⟩)
  exact ⟨_, (EReal.coe_toReal h1.ne h2.ne').symm⟩

/-- The shift the log-softmax subtracts at a pixel — the maximum of minus infinity and the class maximum — is a real. -/
theorem shift_real (x0 : (⟨S8x6x4x512x512, .f32⟩ : BufTy).Contents (Elt Ideal)) (p : SP.Idx → ℝ)
    (hp : ∀ i, x0 i = ((p i : ℝ) : EReal)) (j : S8x6x512x512.Idx) :
    ∃ m : ℝ, val_main_call0_v2 (F := Ideal) x0 j = (m : EReal) := by
  rw [val_main_call0_v2_apply, val_main_call0_v1_apply, val_main_call0_cst_0_apply, Ideal.maximumf_def, Ideal.ofBits_def,
    ofBits_negInf, max_bot_left]
  unfold val_main_call0_v0
  have e := Host.reduce_eq_fold_single (FloatOps.maximumf (F := Ideal) (φ := .f32)) x0 (val_main_call0_cst (F := Ideal))
    reducesTo_S8x6x4x512x512_S8x6x512x512_d2 (by decide) h_S_ j
  rw [e, val_main_call0_cst_apply, Ideal.ofBits_def, ofBits_negInf]
  exact fold_max_real _ ⟨⟨0, by decide⟩, Finset.mem_univ _⟩ _ (fun k => ⟨_, hp _⟩)

/-! ## The log-softmax at a pixel -/

/-- The shift's broadcast over the class axis reads the pixel (n, s, h, w). -/
theorem idx_shift (n : Fin 8) (s : Fin 6) (c : Fin 4) (h w : Fin 512) :
    idx_main_call0_v3 (idx_main_call0_v4 (ix5 n s c h w)) = ix4 n s h w :=
  funext fun a => Fin.ext (by match a with | ⟨0, _⟩ => rfl | ⟨1, _⟩ => rfl | ⟨2, _⟩ => rfl | ⟨3, _⟩ => rfl)

/-- The log-sum's broadcast over the class axis reads the pixel (n, s, h, w). -/
theorem idx_logsum (n : Fin 8) (s : Fin 6) (c : Fin 4) (h w : Fin 512) :
    idx_main_call0_v8 (idx_main_call0_v10 (ix5 n s c h w)) = ix4 n s h w :=
  funext fun a => Fin.ext (by match a with | ⟨0, _⟩ => rfl | ⟨1, _⟩ => rfl | ⟨2, _⟩ => rfl | ⟨3, _⟩ => rfl)

/-- The sum over the class axis at the pixel (n, s, h, w) runs over the entries (n, s, k, h, w). -/
theorem idx_classes (n : Fin 8) (s : Fin 6) (h w : Fin 512) (k : Fin 4) :
    idx_main_call0_v7 (ix4 n s h w) k = ix5 n s k h w :=
  funext fun a => Fin.ext (by
    match a with | ⟨0, _⟩ => rfl | ⟨1, _⟩ => rfl | ⟨2, _⟩ => rfl | ⟨3, _⟩ => rfl | ⟨4, _⟩ => rfl)

/-- The log-softmax at (n, s, k, h, w), for real logits p: with m the real shift of the pixel, the shifted logit minus
    the logarithm of the sum, from zero, of the exponentials of the four shifted logits. -/
theorem logSoftmax_apply (x0 : (⟨S8x6x4x512x512, .f32⟩ : BufTy).Contents (Elt Ideal)) (p : SP.Idx → ℝ)
    (hp : ∀ i, x0 i = ((p i : ℝ) : EReal)) (n : Fin 8) (s : Fin 6) (k : Fin 4) (h w : Fin 512) :
    ∃ m : ℝ, val_main_v0 (F := Ideal) x0 (ix5 n s k h w)
      = ((p (ix5 n s k h w) : EReal) - (m : EReal))
          - Ideal.log (0 + ∑ c : Fin 4, Ideal.exp ((p (ix5 n s c h w) : EReal) - (m : EReal))) := by
  obtain ⟨m, hm⟩ := shift_real x0 p hp (ix4 n s h w)
  refine ⟨m, ?_⟩
  have hd : ∀ c : Fin 4, val_main_call0_v5 (F := Ideal) x0 (ix5 n s c h w) = (p (ix5 n s c h w) : EReal) - (m : EReal) := by
    intro c
    rw [val_main_call0_v5_apply, val_main_call0_v4_apply, val_main_call0_v3_apply, idx_shift, hm, Ideal.subf_def, hp]
  rw [val_main_v0_apply, Ideal.subf_def, hd, val_main_call0_v10_apply, val_main_call0_v9_apply, val_main_call0_v8_apply,
    idx_logsum, val_main_call0_v7_apply, val_main_call0_cst_1_apply, Ideal.hostUnary_log_def, Ideal.ofBits_def,
    Ideal.ofBits_zero_f32]
  refine congrArg (fun z => _ - Ideal.log (0 + z)) (Finset.sum_congr rfl fun c _ => ?_)
  rw [idx_classes, val_main_call0_v6_apply, Ideal.hostUnary_exp_def, hd]

/-- Negated, it is the real cross entropy of the pixel against class k: the shift cancels. -/
theorem neg_logSoftmax_apply (x0 : (⟨S8x6x4x512x512, .f32⟩ : BufTy).Contents (Elt Ideal)) (p : SP.Idx → ℝ)
    (hp : ∀ i, x0 i = ((p i : ℝ) : EReal)) (n : Fin 8) (s : Fin 6) (k : Fin 4) (h w : Fin 512) :
    -(val_main_v0 (F := Ideal) x0 (ix5 n s k h w))
      = ((Real.log (∑ c : Fin 4, Real.exp (p (ix5 n s c h w))) - p (ix5 n s k h w) : ℝ) : EReal) := by
  obtain ⟨m, hm⟩ := logSoftmax_apply x0 p hp n s k h w
  rw [hm]
  exact neg_log_softmax_shift (fun c => p (ix5 n s c h w)) m k

/-! ## The index word, the range test and the gather -/

/-- The labels' broadcast over the unit class axis reads the pixel (n, s, h, w). -/
theorem idx_label (n : Fin 8) (s : Fin 6) (z : Fin 1) (h w : Fin 512) : idx_main_v1 (ix5 n s z h w) = ix4 n s h w :=
  funext fun a => Fin.ext (by match a with | ⟨0, _⟩ => rfl | ⟨1, _⟩ => rfl | ⟨2, _⟩ => rfl | ⟨3, _⟩ => rfl)

/-- The index word, reshaped to rank 6 with a trailing unit axis, at (n, s, z, h, w, z'): the wrapped label of the
    pixel (the two arrays have the same row-major order, and a unit axis does not move a position). -/
theorem indexWord_apply (x1 : (⟨S8x6x512x512, .i32⟩ : BufTy).Contents (Elt Ideal)) (n : Fin 8) (s : Fin 6) (z : Fin 1)
    (h w : Fin 512) (z' : Fin 1) :
    val_main_call1_v5 (F := Ideal) x1 (ix6 n s z h w z') = wrap (x1 (ix4 n s h w)) := by
  unfold val_main_call1_v5
  rw [shapeCast_apply (val_main_call1_v4 (F := Ideal) x1) shapeCasts_S8x6x1x512x512_S8x6x1x512x512x1 (ix6 n s z h w z')
    (ix5 n s z h w) (by
      rw [Shape.rowMajor_val_five, Shape.rowMajor_val_six]
      show (((n.val * 6 + s.val) * 1 + z.val) * 512 + h.val) * 512 + w.val
        = ((((n.val * 6 + s.val) * 1 + z.val) * 512 + h.val) * 512 + w.val) * 1 + z'.val
      have := z'.isLt; omega)]
  rw [val_main_call1_v4_apply, val_main_call1_v1_apply, val_main_call1_v3_apply, val_main_v1_apply, val_main_call1_v0_apply,
    val_main_call1_v2_apply, val_main_call1_c_apply, val_main_call1_c_0_apply, idx_label]
  rfl

/-- A conjunction of one-bit words that are all 1, taken from 1, is 1. -/
theorem fold_andi_ones {ι : Type} [DecidableEq ι] (S : Finset ι) (f : ι → BitVec 1) (hf : ∀ i, f i = 1#1) :
    S.fold IntOp.andi 1#1 f = 1#1 := by
  induction S using Finset.induction_on with
  | empty => rfl
  | insert a S ha ih => rw [Finset.fold_insert ha, ih, hf a]; rfl

/-- For labels in [-4, 4) every index word passes both range tests. -/
theorem inRange_all (x1 : (⟨S8x6x512x512, .i32⟩ : BufTy).Contents (Elt Ideal)) (hT : InRange x1) (i : S8x6x1x512x512x1.Idx) :
    val_main_call1_v11 (F := Ideal) x1 i = 1#1 := by
  obtain ⟨n, s, z, h, w, z', rfl⟩ : ∃ (n : Fin 8) (s : Fin 6) (z : Fin 1) (h w : Fin 512) (z' : Fin 1), i = ix6 n s z h w z' :=
    ⟨i 0, i 1, i 2, i 3, i 4, i 5, eq_ix6 i⟩
  rw [val_main_call1_v11_apply, val_main_call1_v7_apply, val_main_call1_v10_apply, indexWord_apply, val_main_call1_v6_apply,
    val_main_call1_c_2_apply, val_main_call1_v9_apply, val_main_call1_v8_apply, val_main_call1_c_1_apply]
  exact wrap_inRange _ (hT _)

/-- So the conjunction over the trailing unit axis is 1 everywhere: no pixel takes the fill value. -/
theorem inRange_apply (x1 : (⟨S8x6x512x512, .i32⟩ : BufTy).Contents (Elt Ideal)) (hT : InRange x1) (j : S8x6x1x512x512.Idx) :
    val_main_call1_v12 (F := Ideal) x1 j = 1#1 := by
  unfold val_main_call1_v12
  rw [Host.reduce_eq_fold]
  exact fold_andi_ones _ _ (inRange_all x1 hT)

/-! ## The gather along the class axis -/

/-- The gather's dimension numbers: the class axis 2 collapsed and indexed, the axes 0, 1, 3, 4 batching. -/
abbrev classGather : GatherDims S8x6x4x512x512 S8x6x1x512x512x1 S8x6x1x512x512 :=
  gather_S8x6x4x512x512_S8x6x1x512x512x1_S8x6x1x512x512_n_2_0134_0134_2_5_11111

/-- The start-indices entry the result index (n, s, z, h, w) reads its one start component at: (n, s, z, h, w, 0). -/
theorem classGather_siIdx (n : Fin 8) (s : Fin 6) (z : Fin 1) (h w : Fin 512)
    (c : Fin classGather.startIndexMap.length) : classGather.siIdx (ix5 n s z h w) c = ix6 n s z h w 0 :=
  funext fun b => Fin.ext (by
    have hc : c.val = 0 := by have h1 : c.val < 1 := c.isLt; omega
    match b with
    | ⟨0, _⟩ => rfl
    | ⟨1, _⟩ => rfl
    | ⟨2, _⟩ => rfl
    | ⟨3, _⟩ => rfl
    | ⟨4, _⟩ => rfl
    | ⟨5, _⟩ => exact hc)

/-- The gather at (n, s, z, h, w): the operand at (n, s, k, h, w), k the index word of the pixel read signed and clamped
    into [0, 3] — the batching axes carry the result's coordinates, the collapsed class axis the clamped start. -/
theorem gather_apply {α : Type} (y : S8x6x4x512x512.Idx → α) (idx : IVec S8x6x1x512x512x1 32) (n : Fin 8) (s : Fin 6)
    (z : Fin 1) (h w : Fin 512) :
    Host.gather classGather y idx (ix5 n s z h w)
      = y (ix5 n s ⟨min (idx (ix6 n s z h w 0)).toInt.toNat (4 - 1), by omega⟩ h w) := by
  unfold Host.gather
  refine congrArg y (funext fun a => Fin.ext ?_)
  match a with
  | ⟨0, _⟩ => exact (show 0 + n.val + 0 = n.val by omega)
  | ⟨1, _⟩ => exact (show 0 + s.val + 0 = s.val by omega)
  | ⟨2, _⟩ =>
    show classGather.start (ix5 n s z h w) idx 2 + classGather.batchCoord (ix5 n s z h w) 2
      + classGather.offCoord (ix5 n s z h w) 2 = min (idx (ix6 n s z h w 0)).toInt.toNat (4 - 1)
    rw [classGather.batchCoord_eq_zero _ _ (by decide), classGather.offCoord_eq_zero _ _ (by decide)]
    unfold GatherDims.start
    rw [dif_pos (show (2 : Fin 5) ∈ classGather.startIndexMap from List.mem_singleton.mpr rfl), classGather_siIdx]
    rfl
  | ⟨3, _⟩ => exact (show 0 + h.val + 0 = h.val by omega)
  | ⟨4, _⟩ => exact (show 0 + w.val + 0 = w.val by omega)

/-! ## The per-pixel value -/

/-- The reshape that drops the unit class axis reads (n, s, 0, h, w): the two arrays have the same row-major order. -/
theorem idx_squeeze (n : Fin 8) (s : Fin 6) (h w : Fin 512) : idx_main_v3 (ix4 n s h w) = ix5 n s 0 h w :=
  funext fun a => Fin.ext (by
    have := n.isLt; have := s.isLt; have := h.isLt; have := w.isLt
    match a with
    | ⟨0, _⟩ => show (((n.val * 6 + s.val) * 512 + h.val) * 512 + w.val) / 1572864 = n.val; omega
    | ⟨1, _⟩ => show (((n.val * 6 + s.val) * 512 + h.val) * 512 + w.val) / 262144 % 6 = s.val; omega
    | ⟨2, _⟩ => rfl
    | ⟨3, _⟩ => show (((n.val * 6 + s.val) * 512 + h.val) * 512 + w.val) / 512 % 512 = h.val; omega
    | ⟨4, _⟩ => show (((n.val * 6 + s.val) * 512 + h.val) * 512 + w.val) % 512 = w.val; omega)

/-- What the reference negates at the pixel (n, s, h, w), for labels in [-4, 4): the log-softmax at the class of the
    pixel's label — the range test passes, and the clamped index word is that class. -/
theorem picked_apply (x0 : (⟨S8x6x4x512x512, .f32⟩ : BufTy).Contents (Elt Ideal))
    (x1 : (⟨S8x6x512x512, .i32⟩ : BufTy).Contents (Elt Ideal)) (hT : InRange x1) (n : Fin 8) (s : Fin 6) (h w : Fin 512) :
    val_main_v3 (F := Ideal) x0 x1 (ix4 n s h w)
      = val_main_v0 (F := Ideal) x0 (ix5 n s (cls (x1 (ix4 n s h w))) h w) := by
  rw [val_main_v3_apply, idx_squeeze, val_main_v2_apply, inRange_apply x1 hT, select_one]
  unfold val_main_call1_v13
  rw [gather_apply]
  refine congrArg (val_main_v0 (F := Ideal) x0) (congrArg (fun k => ix5 n s k h w) (Fin.ext ?_))
  show min (val_main_call1_v5 (F := Ideal) x1 (ix6 n s 0 h w 0)).toInt.toNat (4 - 1) = (cls (x1 (ix4 n s h w))).val
  rw [indexWord_apply]
  exact wrap_cls _ (hT _)

/-- The negated value at the pixel is the per-pixel cross entropy of the specification. -/
theorem pixel_apply (x0 : (⟨S8x6x4x512x512, .f32⟩ : BufTy).Contents (Elt Ideal))
    (x1 : (⟨S8x6x512x512, .i32⟩ : BufTy).Contents (Elt Ideal)) (hP : Finite x0) (hT : InRange x1) (n : Fin 8) (s : Fin 6)
    (h w : Fin 512) :
    val_main_v4 (F := Ideal) x0 x1 (ix4 n s h w) = pix x0 x1 n s h w := by
  rw [val_main_v4_apply, Ideal.hostNegf_def, Ideal.negf_def, picked_apply x0 x1 hT,
    neg_logSoftmax_apply x0 (fun i => (x0 i).toReal) hP]
  rfl

/-! ## The batch mean and the total -/

/-- The batch sum at (s, h, w) runs over the pixels (n, s, h, w). -/
theorem idx_batch (s : Fin 6) (h w : Fin 512) (n : Fin 8) : idx_main_v5 (ix3 s h w) n = ix4 n s h w :=
  funext fun a => Fin.ext (by match a with | ⟨0, _⟩ => rfl | ⟨1, _⟩ => rfl | ⟨2, _⟩ => rfl | ⟨3, _⟩ => rfl)

/-- The batch mean at (s, h, w): the sum, from zero, of the eight per-pixel cross entropies, times an eighth (division
    by the real 8 is multiplication by its reciprocal). -/
theorem mean_apply (x0 : (⟨S8x6x4x512x512, .f32⟩ : BufTy).Contents (Elt Ideal))
    (x1 : (⟨S8x6x512x512, .i32⟩ : BufTy).Contents (Elt Ideal)) (hP : Finite x0) (hT : InRange x1) (s : Fin 6) (h w : Fin 512) :
    val_main_v7 (F := Ideal) x0 x1 (ix3 s h w) = (0 + ∑ n : Fin 8, pix x0 x1 n s h w) * ((1 / 8 : ℝ) : EReal) := by
  have hs : ∑ k : Fin 8, val_main_v4 (F := Ideal) x0 x1 (idx_main_v5 (ix3 s h w) k) = ∑ n : Fin 8, pix x0 x1 n s h w :=
    Finset.sum_congr rfl fun n _ => by rw [idx_batch, pixel_apply x0 x1 hP hT]
  rw [val_main_v7_apply, val_main_v5_apply, val_main_v6_apply, val_main_cst_apply, val_main_cst_0_apply, Ideal.hostDivf_def,
    Ideal.ofBits_def, Ideal.ofBits_def, Ideal.ofBits_zero_f32, ofBits_eight, Ideal.div_coe (y := 8) (by norm_num), hs]

/-- The reference's result, for real logits and labels in [-4, 4): the reference's arrangement of the real per-pixel cross
    entropy. -/
theorem result_eq (x0 : (⟨S8x6x4x512x512, .f32⟩ : BufTy).Contents (Elt Ideal)) (x1 : (⟨S8x6x512x512, .i32⟩ : BufTy).Contents (Elt Ideal))
    (hP : Finite x0) (hT : InRange x1) :
    val_main_v8 (F := Ideal) x0 x1 = fun _ => refShape (pix x0 x1) := by
  funext i
  rw [val_main_v8_apply, val_main_cst_1_apply, Ideal.ofBits_def, Ideal.ofBits_zero_f32]
  unfold refShape
  refine congrArg (0 + ·) (Finset.sum_congr rfl fun j _ => ?_)
  obtain ⟨s, h, w, rfl⟩ : ∃ (s : Fin 6) (h w : Fin 512), j = ix3 s h w := ⟨j 0, j 1, j 2, eq_ix3 j⟩
  exact mean_apply x0 x1 hP hT s h w

end Cert.ReferenceIdeal.RefValue

end
-- ==== Proof.Combine.lean ====
/-
  The two arrangements of one real per-pixel function are the same extended real: every term is a real number, so the
  sums may be regrouped freely.

  Both sides are first written as the image of ONE real number: a finite sum of reals read as extended reals is the real
  sum read as an extended real, and so is the batch accumulation from zero and the product with the real eighth.  What
  is left is an identity of real sums: over (s, h), an eighth of the sum over n of the row totals over w; over (s, h, w),
  an eighth of the sum over n.  The eighth is pulled out of the sum over w and the sums over w and n are exchanged.
-/
import Mathlib.Algebra.BigOperators.Fin
import Mathlib.Data.EReal.Basic
import proofs.«403553_j57294863728909_3_alg».proof.Proof.Spec

noncomputable section

open scoped BigOperators

namespace Cert.CrossEntropy

open Idealize.ShloMosaic Idealize.ShloMosaic.ValueIdx

/-- A finite sum of reals, each read as an extended real, is the real sum read as an extended real. -/
theorem coe_sum_real {ι : Type*} (t : Finset ι) (g : ι → ℝ) :
    (∑ x ∈ t, ((g x : ℝ) : EReal)) = ((∑ x ∈ t, g x : ℝ) : EReal) := by
  classical
  refine Finset.induction_on t ?_ ?_
  · simp
  · intro a u ha ih
    rw [Finset.sum_insert ha, Finset.sum_insert ha, ih, EReal.coe_add]

/-- The batch accumulation from zero of eight reals is their real sum. -/
theorem acc8_coe (R : Fin 8 → ℝ) : acc8 (fun n => ((R n : ℝ) : EReal)) = ((∑ n : Fin 8, R n : ℝ) : EReal) := by
  unfold acc8
  rw [Fin.sum_univ_eight]
  simp only [zero_add, ← EReal.coe_add]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (F : (⟨3, ![n0, n1, n2]⟩ : Shape).Idx → M) :
    ∑ i, F i = ∑ a : Fin n0, ∑ b : Fin n1, ∑ c : Fin n2, F (ix3 a b c) := by
  rw [← Equiv.sum_comp (idxEquiv3 (n0 := n0) (n1 := n1) (n2 := n2)).symm F, Fintype.sum_prod_type]
  refine Finset.sum_congr rfl fun a _ => ?_
  rw [Fintype.sum_prod_type]
  rfl

/-- The kernel's arrangement of a real per-pixel function, as one real number. -/
theorem kernelShape_coe (f : Fin 8 → Fin 6 → Fin 512 → Fin 512 → ℝ) :
    kernelShape (fun n s h w => ((f n s h w : ℝ) : EReal))
      = ((∑ s : Fin 6, ∑ h : Fin 512, (∑ n : Fin 8, ∑ w : Fin 512, f n s h w) * (1 / 8) : ℝ) : EReal) := by
  unfold kernelShape
  have hterm : ∀ i : SO.Idx,
      acc8 (rowsum (fun n s h w => ((f n s h w : ℝ) : EReal)) (i 0) (i 1)) * ((1 / 8 : ℝ) : EReal)
        = (((∑ n : Fin 8, ∑ w : Fin 512, f n (i 0) (i 1) w) * (1 / 8) : ℝ) : EReal) := by
    intro i
    have hrow : rowsum (fun n s h w => ((f n s h w : ℝ) : EReal)) (i 0) (i 1)
        = fun n => ((∑ w : Fin 512, f n (i 0) (i 1) w : ℝ) : EReal) := by
      funext n
      unfold rowsum
      exact coe_sum_real _ _
    rw [hrow, acc8_coe, ← EReal.coe_mul]
  rw [zero_add, Finset.sum_congr rfl (fun i _ => hterm i), coe_sum_real]
  congr 1
  rw [sum_idx3 (n0 := 6) (n1 := 512) (n2 := 1)]
  refine Finset.sum_congr rfl fun s _ => Finset.sum_congr rfl fun h _ => ?_
  rw [Fin.sum_univ_one]

/-- The reference's arrangement of a real per-pixel function, as one real number. -/
theorem refShape_coe (f : Fin 8 → Fin 6 → Fin 512 → Fin 512 → ℝ) :
    refShape (fun n s h w => ((f n s h w : ℝ) : EReal))
      = ((∑ s : Fin 6, ∑ h : Fin 512, ∑ w : Fin 512, (∑ n : Fin 8, f n s h w) * (1 / 8) : ℝ) : EReal) := by
  unfold refShape
  have hterm : ∀ i : SM.Idx,
      (0 + ∑ n : Fin 8, ((f n (i 0) (i 1) (i 2) : ℝ) : EReal)) * ((1 / 8 : ℝ) : EReal)
        = (((∑ n : Fin 8, f n (i 0) (i 1) (i 2)) * (1 / 8) : ℝ) : EReal) := by
    intro i
    rw [zero_add, coe_sum_real, ← EReal.coe_mul]
  rw [zero_add, Finset.sum_congr rfl (fun i _ => hterm i), coe_sum_real]
  congr 1
  rw [sum_idx3 (n0 := 6) (n1 := 512) (n2 := 512)]

/-- Summed over (s, h) an eighth of the batch-ordered row totals, or over (s, h, w) an eighth of the batch totals: one
    real number. -/
theorem combine (f : Fin 8 → Fin 6 → Fin 512 → Fin 512 → ℝ) :
    kernelShape (fun n s h w => ((f n s h w : ℝ) : EReal)) = refShape (fun n s h w => ((f n s h w : ℝ) : EReal)) := by
  rw [kernelShape_coe, refShape_coe]
  congr 1
  refine Finset.sum_congr rfl fun s _ => Finset.sum_congr rfl fun h _ => ?_
  rw [← Finset.sum_mul, Finset.sum_comm]

end Cert.CrossEntropy

end
-- ==== Proof.PreDecode.lean ====
/-
  What the precondition says of the argument arrays: every logit is a real number, and every label lies in [-4, 4).

  The precondition is the conjunction of two conjunctions over all entries: of `|P i| < +inf` over the logits, and of
  `-4 ≤ T j` and `T j < 4` (signed) over the labels.  A conjunction that holds gives each of its members; an extended
  real whose absolute value is below +inf is neither infinity, so it is its own real part; and the signed order of
  32-bit words is the order of their integer values, the word 4294967292 having the value -4.
-/
import proofs.«403553_j57294863728909_3_alg».proof.Pre_finite_inputs
import proofs.«403553_j57294863728909_3_alg».proof.Proof.Spec
import Idealize.ShloMosaic.Lib.ReduceAll
import Idealize.ShloMosaic.Lib.StableHlo.Predicate

noncomputable section

namespace Cert.CrossEntropy

open Idealize.ShloMosaic Idealize.ShloMosaic.ValueIdx

/-- The single-precision pattern with all exponent bits set, sign and significand clear, denotes +inf. -/
private theorem ofBits_posInf : Ideal.ofBits .f32 0x7F800000#32 = (⊤ : EReal) := by
  simp [Ideal.ofBits, Ideal.ieee]

/-- An extended real whose absolute value `max x (-x)` is below +inf is a real number: at either infinity the
    absolute value is +inf. -/
private theorem real_of_abs_lt_top (x : EReal) (hx : max x (-x) < ⊤) : x = ((x.toReal : ℝ) : EReal) := by
  induction x using EReal.rec with
  | bot => simp at hx
  | coe r => rw [EReal.toReal_coe]
  | top => simp at hx

/-- A word that is at least the word of -4 and below the word of 4 in the signed order has its value in [-4, 4). -/
private theorem range_of_word (t : BitVec 32)
    (e : IntOp.andi (IntOp.cmpi CmpIPredicate.sge t 4294967292#32) (IntOp.cmpi CmpIPredicate.slt t 4#32) = 1#1) :
    (-4 : ℤ) ≤ t.toInt ∧ t.toInt < 4 := by
  obtain ⟨h1, h2⟩ := IntOp.andi_eq_one.1 e
  have c1 : (4294967292#32 : BitVec 32).toInt = -4 := by decide
  have c2 : (4#32 : BitVec 32).toInt = 4 := by decide
  simp only [IntOp.cmpi, StableHlo.Predicate.ofBool_eq_one_iff, BitVec.sle, BitVec.slt, decide_eq_true_eq, c1, c2] at h1 h2
  exact ⟨h1, h2⟩

/-- The printed precondition, all ones, gives finiteness of the logits and the range of the labels. -/
theorem pre_decode [Cert.Pre_finite_inputs.Facts] (P : FVec Ideal Cert.Pre_finite_inputs.S8x6x4x512x512 .f32)
    (T : IVec Cert.Pre_finite_inputs.S8x6x512x512 32)
    (h : Cert.Pre_finite_inputs.fn (F := Ideal) P T = fun _ => 1#1) : Finite P ∧ InRange T := by
  -- the result has rank 0: one index
  haveI : Subsingleton Cert.Pre_finite_inputs.S_.Idx := ⟨fun a b => funext fun d => d.elim0⟩
  have h0 := congrFun h ValueIdx.ix0
  dsimp only [Cert.Pre_finite_inputs.fn] at h0
  -- the two halves of the outer conjunction
  obtain ⟨hP, hT⟩ := IntOp.andi_eq_one.1 h0
  constructor
  · -- the logits: the entry's comparison `|P i| < +inf` holds
    intro i
    have e := Host.reduce_andi_all _ _ _ _ _ hP i
    dsimp only [cmpf, Host.absf, broadcastInDim, constant] at e
    have e' : BitVec.ofBool (decide (max (P i) (-(P i)) < Ideal.ofBits .f32 0x7F800000#32)) = 1#1 := e
    rw [ofBits_posInf, StableHlo.Predicate.ofBool_eq_one_iff, decide_eq_true_eq] at e'
    exact real_of_abs_lt_top (P i) e'
  · -- the labels: the entry's two comparisons hold
    intro j
    have e := Host.reduce_andi_all _ _ _ _ _ hT j
    dsimp only [andi, cmpi, broadcastInDim, constantI] at e
    exact range_of_word (T j) e

end Cert.CrossEntropy

end
-- ==== Proof.lean ====
/-
  The certificate of the cross-entropy loss kernel against its jnp reference.

  For logits P[n, s, c, h, w] (8 x 6 x 4 x 512 x 512, every entry a real number) and labels T[n, s, h, w] in [-4, 4), both programs
  compute the sum over (s, h, w) of the batch mean over n of
      log (sum over c of exp P[n, s, c, h, w]) - P[n, s, class T[n, s, h, w], h, w].
  The kernel selects the class by the label's two low bits, sums each row over w inside the body, accumulates the row totals
  over the batch two entries per grid point, stores an eighth of the total per (s, h), and sums those on the host; the
  reference takes a log-softmax (shifted by the class maximum, which cancels over the reals), gathers it at the label,
  and takes mean and sum on the host.  Every term is real, so the two orders of summation agree.

  The precondition beside finiteness of the logits is the labels' range [-4, 4): outside it the reference's gather fills its
  result with a not-a-number.  Inside it a negative label names the class four above it, in both programs.
-/
import proofs.«403553_j57294863728909_3_alg».proof.Defs
import proofs.«403553_j57294863728909_3_alg».proof.Proof.Gen.Kernel
import proofs.«403553_j57294863728909_3_alg».proof.Proof.Gen.Kernel.Skeleton
import proofs.«403553_j57294863728909_3_alg».proof.Proof.Gen.Kernel.Launch
import proofs.«403553_j57294863728909_3_alg».proof.Proof.Gen.Kernel.Points
import proofs.«403553_j57294863728909_3_alg».proof.Proof.Gen.Kernel.Frame
import proofs.«403553_j57294863728909_3_alg».proof.Proof.Gen.KernelIdeal
import proofs.«403553_j57294863728909_3_alg».proof.Proof.Gen.KernelIdeal.Skeleton
import proofs.«403553_j57294863728909_3_alg».proof.Proof.Gen.KernelIdeal.Launch
import proofs.«403553_j57294863728909_3_alg».proof.Proof.Gen.KernelIdeal.Points
import proofs.«403553_j57294863728909_3_alg».proof.Proof.Gen.KernelIdeal.Frame
import proofs.«403553_j57294863728909_3_alg».proof.Proof.Gen.ReferenceIdeal
import proofs.«403553_j57294863728909_3_alg».proof.Proof.Gen.Pre_finite_inputs
import proofs.«403553_j57294863728909_3_alg».proof.Proof.KernelReal
import proofs.«403553_j57294863728909_3_alg».proof.Proof.RefValue
import proofs.«403553_j57294863728909_3_alg».proof.Proof.Combine
import proofs.«403553_j57294863728909_3_alg».proof.Proof.PreDecode
import Idealize.ShloMosaic.Adequacy
import Idealize.ShloMosaic.Init

noncomputable section

namespace Cert.Proof

open Idealize.ShloMosaic Idealize.SL.Sem Cert.CrossEntropy

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel and the idealized reference end with the same loss: each its own arrangement of the real per-pixel
    cross entropy, and the two arrangements are one real number. -/
theorem algebraic : Cert.algebraic_KernelIdeal_ReferenceIdeal := by
  intro m ρ m' ρ' hpre hagree
  have hdec : ∀ c : Dev Cert.KernelIdeal.nD,
      Finite (m ((c.tc : Thread Cert.KernelIdeal.nD Cert.KernelIdeal.τ).loc Cert.KernelIdeal.main_arg0))
      ∧ InRange (m ((c.tc : Thread Cert.KernelIdeal.nD Cert.KernelIdeal.τ).loc Cert.KernelIdeal.main_arg1)) :=
    fun c => pre_decode _ _ (hpre c)
  refine ⟨fun c => fun _ => refShape (pix (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2.1, (h c).2.2⟩)
      (Cert.KernelIdeal.KValue.run (F := Ideal) m ρ)
    rw [Cert.KernelIdeal.KReal.result_eq m c (hdec c).1 (hdec c).2]
    funext _
    exact combine _
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v8_eq, (hagree c).1, (hagree c).2]
    exact Cert.ReferenceIdeal.RefValue.result_eq _ _ (hdec c).1 (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
